-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v50)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v50) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v97) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_arg5 : FVec F S128 .f32) (main_arg6 : FVec F S128 .f32) (main_arg7 : FVec F S128 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128 .f32 := Host.absf main_arg5
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128 .f32 := Host.absf main_arg6
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128 .f32 := Host.absf main_arg7
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  main_v33

def fn {F : FTy → Type} [FloatOps F] (main_arg0 : FVec F S100000x128 .f32) (main_arg1 : IVec S2x1600000 32) (main_arg2 : FVec F S128x128 .f32) (main_arg3 : FVec F S128 .f32) (main_arg4 : FVec F S128 .f32) (main_arg5 : FVec F S128 .f32) (main_arg6 : FVec F S128 .f32) (main_arg7 : FVec F S128 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128 .f32 := Host.absf main_arg4
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg5 main_arg6 main_arg7 main_v13 main_v16
-- ==== Kernel.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S100000 : Shape := ⟨1, ![100000]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S5000x128 : Shape := ⟨2, ![5000, 128]⟩
abbrev S1700000x128 : Shape := ⟨2, ![1700000, 128]⟩
abbrev S1x128 : Shape := ⟨2, ![1, 128]⟩
abbrev S5000 : Shape := ⟨1, ![5000]⟩
abbrev S5000x1 : Shape := ⟨2, ![5000, 1]⟩

abbrev nBuf : Space → Nat
  | .hbm => 72
  | .vmem => 16
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128x128, .f32⟩
  | .hbm, ⟨3, _⟩ => ⟨S128, .f32⟩
  | .hbm, ⟨4, _⟩ => ⟨S128, .f32⟩
  | .hbm, ⟨5, _⟩ => ⟨S128, .f32⟩
  | .hbm, ⟨6, _⟩ => ⟨S128, .f32⟩
  | .hbm, ⟨7, _⟩ => ⟨S128, .f32⟩
  | .hbm, ⟨8, _⟩ => ⟨S100000, .i32⟩
  | .hbm, ⟨9, _⟩ => ⟨S1x1600000, .i32⟩
  | .hbm, ⟨10, _⟩ => ⟨S1600000, .i32⟩
  | .hbm, ⟨11, _⟩ => ⟨S1700000, .i32⟩
  | .hbm, ⟨12, _⟩ => ⟨S1x1600000, .i32⟩
  | .hbm, ⟨13, _⟩ => ⟨S1600000, .i32⟩
  | .hbm, ⟨14, _⟩ => ⟨S1700000, .i32⟩
  | .hbm, ⟨15, _⟩ => ⟨S_, .f32⟩
  | .hbm, ⟨16, _⟩ => ⟨S1700000, .f32⟩
  | .hbm, ⟨17, _⟩ => ⟨S_, .f32⟩
  | .hbm, ⟨18, _⟩ => ⟨S100000, .f32⟩
  | .hbm, ⟨19, _⟩ => ⟨S1700000x1, .i32⟩
  | .hbm, ⟨20, _⟩ => ⟨S100000, .f32⟩
  | .hbm, ⟨21, _⟩ => ⟨S_, .f32⟩
  | .hbm, ⟨22, _⟩ => ⟨S100000, .f32⟩
  | .hbm, ⟨23, _⟩ => ⟨S100000, .i1⟩
  | .hbm, ⟨24, _⟩ => ⟨S100000, .f32⟩
  | .hbm, ⟨25, _⟩ => ⟨S_, .f32⟩
  | .hbm, ⟨26, _⟩ => ⟨S_, .f32⟩
  | .hbm, ⟨27, _⟩ => ⟨S100000, .f32⟩
  | .hbm, ⟨28, _⟩ => ⟨S100000, .f32⟩
  | .hbm, ⟨29, _⟩ => ⟨S_, .i32⟩
  | .hbm, ⟨30, _⟩ => ⟨S1700000, .i32⟩
  | .hbm, ⟨31, _⟩ => ⟨S1700000, .i1⟩
  | .hbm, ⟨32, _⟩ => ⟨S_, .i32⟩
  | .hbm, ⟨33, _⟩ => ⟨S1700000, .i32⟩
  | .hbm, ⟨34, _⟩ => ⟨S1700000, .i32⟩
  | .hbm, ⟨35, _⟩ => ⟨S1700000, .i32⟩
  | .hbm, ⟨36, _⟩ => ⟨S1700000x1, .i32⟩
  | .hbm, ⟨37, _⟩ => ⟨S1700000, .f32⟩
  | .hbm, ⟨38, _⟩ => ⟨S_, .i32⟩
  | .hbm, ⟨39, _⟩ => ⟨S1700000, .i32⟩
  | .hbm, ⟨40, _⟩ => ⟨S1700000, .i1⟩
  | .hbm, ⟨41, _⟩ => ⟨S_, .i32⟩
  | .hbm, ⟨42, _⟩ => ⟨S1700000, .i32⟩
  | .hbm, ⟨43, _⟩ => ⟨S1700000, .i32⟩
  | .hbm, ⟨44, _⟩ => ⟨S1700000, .i32⟩
  | .hbm, ⟨45, _⟩ => ⟨S1700000x1, .i32⟩
  | .hbm, ⟨46, _⟩ => ⟨S1700000, .f32⟩
  | .hbm, ⟨47, _⟩ => ⟨S1700000, .f32⟩
  | .hbm, ⟨48, _⟩ => ⟨S128x128, .f32⟩
  | .hbm, ⟨49, _⟩ => ⟨S100000x128, .f32⟩
  | .hbm, ⟨50, _⟩ => ⟨S_, .i32⟩
  | .hbm, ⟨51, _⟩ => ⟨S1700000, .i32⟩
  | .hbm, ⟨52, _⟩ => ⟨S1700000, .i1⟩
  | .hbm, ⟨53, _⟩ => ⟨S_, .i32⟩
  | .hbm, ⟨54, _⟩ => ⟨S1700000, .i32⟩
  | .hbm, ⟨55, _⟩ => ⟨S1700000, .i32⟩
  | .hbm, ⟨56, _⟩ => ⟨S1700000, .i32⟩
  | .hbm, ⟨57, _⟩ => ⟨S1700000x1, .i32⟩
  | .hbm, ⟨58, _⟩ => ⟨S1700000x128, .f32⟩
  | .hbm, ⟨59, _⟩ => ⟨S1700000x1, .f32⟩
  | .hbm, ⟨60, _⟩ => ⟨S1700000x128, .f32⟩
  | .hbm, ⟨61, _⟩ => ⟨S1700000x128, .f32⟩
  | .hbm, ⟨62, _⟩ => ⟨S_, .f32⟩
  | .hbm, ⟨63, _⟩ => ⟨S100000x128, .f32⟩
  | .hbm, ⟨64, _⟩ => ⟨S1700000x1, .i32⟩
  | .hbm, ⟨65, _⟩ => ⟨S100000x128, .f32⟩
  | .hbm, ⟨66, _⟩ => ⟨S1x128, .f32⟩
  | .hbm, ⟨67, _⟩ => ⟨S1x128, .f32⟩
  | .hbm, ⟨68, _⟩ => ⟨S1x128, .f32⟩
  | .hbm, ⟨69, _⟩ => ⟨S1x128, .f32⟩
  | .hbm, ⟨70, _⟩ => ⟨S1x128, .f32⟩
  | .hbm, ⟨71, _⟩ => ⟨S100000x128, .f32⟩
  | .local _ .vmem, ⟨0, _⟩ => ⟨S5000x128, .f32⟩
  | .local _ .vmem, ⟨1, _⟩ => ⟨S5000x128, .f32⟩
  | .local _ .vmem, ⟨2, _⟩ => ⟨S128x128, .f32⟩
  | .local _ .vmem, ⟨3, _⟩ => ⟨S5000x128, .f32⟩
  | .local _ .vmem, ⟨4, _⟩ => ⟨S5000x128, .f32⟩
  | .local _ .vmem, ⟨5, _⟩ => ⟨S5000x128, .f32⟩
  | .local _ .vmem, ⟨6, _⟩ => ⟨S5000x128, .f32⟩
  | .local _ .vmem, ⟨7, _⟩ => ⟨S5000x128, .f32⟩
  | .local _ .vmem, ⟨8, _⟩ => ⟨S5000x128, .f32⟩
  | .local _ .vmem, ⟨9, _⟩ => ⟨S1x128, .f32⟩
  | .local _ .vmem, ⟨10, _⟩ => ⟨S1x128, .f32⟩
  | .local _ .vmem, ⟨11, _⟩ => ⟨S1x128, .f32⟩
  | .local _ .vmem, ⟨12, _⟩ => ⟨S1x128, .f32⟩
  | .local _ .vmem, ⟨13, _⟩ => ⟨S1x128, .f32⟩
  | .local _ .vmem, ⟨14, _⟩ => ⟨S5000x128, .f32⟩
  | .local _ .vmem, ⟨15, _⟩ => ⟨S5000x128, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst : Ref sig .tc := ⟨.hbm, 15, rfl⟩
abbrev main_v7 : Ref sig .tc := ⟨.hbm, 16, rfl⟩
abbrev main_cst_0 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst_1 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_2 : Ref sig .tc := ⟨.hbm, 25, rfl⟩
abbrev main_call0_v0 : Ref sig .tc := ⟨.hbm, 26, rfl⟩
abbrev main_call0_v1 : Ref sig .tc := ⟨.hbm, 27, rfl⟩
abbrev main_v14 : Ref sig .tc := ⟨.hbm, 28, rfl⟩
abbrev main_c : Ref sig .tc := ⟨.hbm, 29, rfl⟩
abbrev main_v15 : Ref sig .tc := ⟨.hbm, 30, rfl⟩
abbrev main_v16 : Ref sig .tc := ⟨.hbm, 31, rfl⟩
abbrev main_c_3 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_c_4 : Ref sig .tc := ⟨.hbm, 38, rfl⟩
abbrev main_v22 : Ref sig .tc := ⟨.hbm, 39, rfl⟩
abbrev main_v23 : Ref sig .tc := ⟨.hbm, 40, rfl⟩
abbrev main_c_5 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_c_6 : Ref sig .tc := ⟨.hbm, 50, rfl⟩
abbrev main_v32 : Ref sig .tc := ⟨.hbm, 51, rfl⟩
abbrev main_v33 : Ref sig .tc := ⟨.hbm, 52, rfl⟩
abbrev main_c_7 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_cst_8 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg4_0 : Ref sig .tc := ⟨.vmem, 11, rfl⟩
abbrev cc1_stg5_0 : Ref sig .tc := ⟨.vmem, 12, rfl⟩
abbrev cc1_stg6_0 : Ref sig .tc := ⟨.vmem, 13, rfl⟩
abbrev cc1_stg7_0 : Ref sig .tc := ⟨.vmem, 14, rfl⟩
abbrev cc1_stg7_1 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem3_0 : DmaSem sig := 10
abbrev cc1_sem4_0 : DmaSem sig := 11
abbrev cc1_sem5_0 : DmaSem sig := 12
abbrev cc1_sem6_0 : DmaSem sig := 13
abbrev cc1_sem7_0 : DmaSem sig := 14
abbrev cc1_sem7_1 : DmaSem sig := 15

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x128 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 2 → Memref sig .tc .vmem S5000x128 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  transposes_S128x128_S128x128_1_0 : S128x128.Transposes [1, 0] S128x128
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  shapeCasts_S128x128_S128x128 : S128x128.ShapeCasts S128x128
  bcast_S1700000x1_S1700000x128_0_1 : S1700000x1.BroadcastsInDim S1700000x128 (![0, 1] : Fin 2 → Fin S1700000x128.rank)
  bcast_S_S100000x128 : S_.BroadcastsInDim S100000x128 (![] : Fin 0 → Fin S100000x128.rank)
  shapeCasts_S128_S1x128 : S128.ShapeCasts S1x128
  shapeCasts_S5000x128_S5000x128 : S5000x128.ShapeCasts S5000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  reduces_S5000x128_S5000 : S5000x128.Reduces [1] S5000
  shapeCasts_S5000_S5000x1 : S5000.ShapeCasts S5000x1
  broadcasts_S5000x1_S5000x128 : S5000x1.Broadcasts S5000x128
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S5000x128_S128x128_S5000x128_1_0_0_1_n_n_wf : DotDims.WF S5000x128 S128x128 S5000x128 [1] [0] [0] [1] [] []
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x128.size a ≤ S100000x128.size a
  hwx0_2 : ∀ i : grid0.Coords, EltTy.bits .f32 = 32 ∨ (Rect.block (s := S100000x128) S5000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .f32 = 32 ∨ (Rect.block (s := S100000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x128.size a ≤ S100000x128.size a
  hwx1_1 : ∀ i : grid1.Coords, EltTy.bits .f32 = 32 ∨ (Rect.block (s := S100000x128) S5000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x128.size a ≤ S1x128.size a
  hwx1_4 : ∀ i : grid1.Coords, EltTy.bits .f32 = 32 ∨ (Rect.block (s := S1x128) S1x128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x128.size a ≤ S1x128.size a
  hwx1_5 : ∀ i : grid1.Coords, EltTy.bits .f32 = 32 ∨ (Rect.block (s := S1x128) S1x128.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1x128.size a ≤ S1x128.size a
  hwx1_6 : ∀ i : grid1.Coords, EltTy.bits .f32 = 32 ∨ (Rect.block (s := S1x128) S1x128.size (cc1_transform_6 i) (hinb1_6 i)).WholeWords (EltTy.packing .f32)
  hstage1_7 : ∀ j, (stage1_7 j).IsWhole
  nbuf1_7 : grid1.bufCount reads1_7 false = 2
  hreads1_7 : ∀ i i' : grid1.Coords, (∀ a, reads1_7 a = true → i a = i' a) → cc1_transform_7 i = cc1_transform_7 i'
  hinb1_7 : ∀ (i : grid1.Coords) a, (cc1_transform_7 i a + 1) * S5000x128.size a ≤ S100000x128.size a
  hwx1_7 : ∀ i : grid1.Coords, EltTy.bits .f32 = 32 ∨ (Rect.block (s := S100000x128) S5000x128.size (cc1_transform_7 i) (hinb1_7 i)).WholeWords (EltTy.packing .f32)

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v30) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v31) S5000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v44) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg0) S5000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v45) S1x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v46) S1x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v47) S1x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v48) S1x128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v49) S1x128.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v50) S5000x128.size cc1_transform_7 reads1_7 true false 2 stage1_7 sem1_7
    hrank1 hreads1_7 hinb1_7 nbuf1_7 (Memref.isWhole_whole _) hwx1_7 hstage1_7

abbrev win1 : Fin 8 → Pipeline.Window sig grid1 := fun | 0 => win1_0 | 1 => win1_1 | 2 => win1_2 | 3 => win1_3 | 4 => win1_4 | 5 => win1_5 | 6 => win1_6 | 7 => win1_7 | ⟨_ + 8, h⟩ => absurd h (Nat.not_lt.2 (Nat.le_add_left _ _))
abbrev spec1 : Fin 8 → Pipeline.WinSpec sig grid1.rank := fun w => (win1 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S100000 : Shape := ⟨1, ![100000]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S1700000x128 : Shape := ⟨2, ![1700000, 128]⟩
abbrev S1x128 : Shape := ⟨2, ![1, 128]⟩
abbrev S100000x1 : Shape := ⟨2, ![100000, 1]⟩

abbrev nBuf : Space → Nat
  | .hbm => 131
  | .vmem => 0
  | .smem => 0
  | _ => 0

abbrev hbmTy0_0 (i : Nat) : BufTy := match i % 128 with
  | 0 => ⟨S100000x128, .f32⟩
  | 1 => ⟨S2x1600000, .i32⟩
  | 2 => ⟨S128x128, .f32⟩
  | 3 => ⟨S128, .f32⟩
  | 4 => ⟨S128, .f32⟩
  | 5 => ⟨S128, .f32⟩
  | 6 => ⟨S128, .f32⟩
  | 7 => ⟨S128, .f32⟩
  | 8 => ⟨S100000, .i32⟩
  | 9 => ⟨S1x1600000, .i32⟩
  | 10 => ⟨S1600000, .i32⟩
  | 11 => ⟨S1700000, .i32⟩
  | 12 => ⟨S1x1600000, .i32⟩
  | 13 => ⟨S1600000, .i32⟩
  | 14 => ⟨S1700000, .i32⟩
  | 15 => ⟨S_, .f32⟩
  | 16 => ⟨S1700000, .f32⟩
  | 17 => ⟨S_, .f32⟩
  | 18 => ⟨S100000, .f32⟩
  | 19 => ⟨S1700000x1, .i32⟩
  | 20 => ⟨S100000, .f32⟩
  | 21 => ⟨S_, .f32⟩
  | 22 => ⟨S100000, .f32⟩
  | 23 => ⟨S100000, .i1⟩
  | 24 => ⟨S100000, .f32⟩
  | 25 => ⟨S_, .f32⟩
  | 26 => ⟨S_, .f32⟩
  | 27 => ⟨S100000, .f32⟩
  | 28 => ⟨S100000, .f32⟩
  | 29 => ⟨S_, .i32⟩
  | 30 => ⟨S1700000, .i32⟩
  | 31 => ⟨S1700000, .i1⟩
  | 32 => ⟨S_, .i32⟩
  | 33 => ⟨S1700000, .i32⟩
  | 34 => ⟨S1700000, .i32⟩
  | 35 => ⟨S1700000, .i32⟩
  | 36 => ⟨S1700000x1, .i32⟩
  | 37 => ⟨S1700000, .f32⟩
  | 38 => ⟨S_, .i32⟩
  | 39 => ⟨S1700000, .i32⟩
  | 40 => ⟨S1700000, .i1⟩
  | 41 => ⟨S_, .i32⟩
  | 42 => ⟨S1700000, .i32⟩
  | 43 => ⟨S1700000, .i32⟩
  | 44 => ⟨S1700000, .i32⟩
  | 45 => ⟨S1700000x1, .i32⟩
  | 46 => ⟨S1700000, .f32⟩
  | 47 => ⟨S1700000, .f32⟩
  | 48 => ⟨S128x128, .f32⟩
  | 49 => ⟨S100000x128, .f32⟩
  | 50 => ⟨S_, .i32⟩
  | 51 => ⟨S1700000, .i32⟩
  | 52 => ⟨S1700000, .i1⟩
  | 53 => ⟨S_, .i32⟩
  | 54 => ⟨S1700000, .i32⟩
  | 55 => ⟨S1700000, .i32⟩
  | 56 => ⟨S1700000, .i32⟩
  | 57 => ⟨S1700000x1, .i32⟩
  | 58 => ⟨S1700000x128, .f32⟩
  | 59 => ⟨S1700000x1, .f32⟩
  | 60 => ⟨S1700000x128, .f32⟩
  | 61 => ⟨S1700000x128, .f32⟩
  | 62 => ⟨S_, .f32⟩
  | 63 => ⟨S100000x128, .f32⟩
  | 64 => ⟨S1700000x1, .i32⟩
  | 65 => ⟨S100000x128, .f32⟩
  | 66 => ⟨S1x128, .f32⟩
  | 67 => ⟨S100000x128, .f32⟩
  | 68 => ⟨S100000x128, .f32⟩
  | 69 => ⟨S_, .f32⟩
  | 70 => ⟨S100000x128, .f32⟩
  | 71 => ⟨S100000x128, .f32⟩
  | 72 => ⟨S_, .f32⟩
  | 73 => ⟨S100000, .f32⟩
  | 74 => ⟨S100000x1, .f32⟩
  | 75 => ⟨S_, .f32⟩
  | 76 => ⟨S100000x1, .f32⟩
  | 77 => ⟨S100000x1, .f32⟩
  | 78 => ⟨S100000x128, .f32⟩
  | 79 => ⟨S100000x128, .f32⟩
  | 80 => ⟨S100000x128, .f32⟩
  | 81 => ⟨S_, .f32⟩
  | 82 => ⟨S100000, .f32⟩
  | 83 => ⟨S100000x1, .f32⟩
  | 84 => ⟨S_, .f32⟩
  | 85 => ⟨S100000x1, .f32⟩
  | 86 => ⟨S100000x1, .f32⟩
  | 87 => ⟨S100000x128, .f32⟩
  | 88 => ⟨S100000x128, .f32⟩
  | 89 => ⟨S_, .f32⟩
  | 90 => ⟨S100000x1, .f32⟩
  | 91 => ⟨S100000x1, .f32⟩
  | 92 => ⟨S100000x1, .f32⟩
  | 93 => ⟨S100000x128, .f32⟩
  | 94 => ⟨S100000x128, .f32⟩
  | 95 => ⟨S1x128, .f32⟩
  | 96 => ⟨S100000x128, .f32⟩
  | 97 => ⟨S100000x128, .f32⟩
  | 98 => ⟨S1x128, .f32⟩
  | 99 => ⟨S100000x128, .f32⟩
  | 100 => ⟨S100000x128, .f32⟩
  | 101 => ⟨S100000x128, .f32⟩
  | 102 => ⟨S_, .f32⟩
  | 103 => ⟨S100000, .f32⟩
  | 104 => ⟨S100000x1, .f32⟩
  | 105 => ⟨S_, .f32⟩
  | 106 => ⟨S100000x1, .f32⟩
  | 107 => ⟨S100000x1, .f32⟩
  | 108 => ⟨S100000x128, .f32⟩
  | 109 => ⟨S100000x128, .f32⟩
  | 110 => ⟨S100000x128, .f32⟩
  | 111 => ⟨S_, .f32⟩
  | 112 => ⟨S100000, .f32⟩
  | 113 => ⟨S100000x1, .f32⟩
  | 114 => ⟨S_, .f32⟩
  | 115 => ⟨S100000x1, .f32⟩
  | 116 => ⟨S100000x1, .f32⟩
  | 117 => ⟨S100000x128, .f32⟩
  | 118 => ⟨S100000x128, .f32⟩
  | 119 => ⟨S_, .f32⟩
  | 120 => ⟨S100000x1, .f32⟩
  | 121 => ⟨S100000x1, .f32⟩
  | 122 => ⟨S100000x1, .f32⟩
  | 123 => ⟨S100000x128, .f32⟩
  | 124 => ⟨S100000x128, .f32⟩
  | 125 => ⟨S1x128, .f32⟩
  | 126 => ⟨S100000x128, .f32⟩
  | 127 => ⟨S100000x128, .f32⟩
  | _ => ⟨S100000x128, .f32⟩

abbrev hbmTy0_1 (i : Nat) : BufTy := match i % 128 with
  | 0 => ⟨S1x128, .f32⟩
  | 1 => ⟨S100000x128, .f32⟩
  | 2 => ⟨S100000x128, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst : Ref sig .tc := ⟨.hbm, 15, rfl⟩
abbrev main_v7 : Ref sig .tc := ⟨.hbm, 16, rfl⟩
abbrev main_cst_0 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst_1 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_2 : Ref sig .tc := ⟨.hbm, 25, rfl⟩
abbrev main_call0_v0 : Ref sig .tc := ⟨.hbm, 26, rfl⟩
abbrev main_call0_v1 : Ref sig .tc := ⟨.hbm, 27, rfl⟩
abbrev main_v14 : Ref sig .tc := ⟨.hbm, 28, rfl⟩
abbrev main_c : Ref sig .tc := ⟨.hbm, 29, rfl⟩
abbrev main_v15 : Ref sig .tc := ⟨.hbm, 30, rfl⟩
abbrev main_v16 : Ref sig .tc := ⟨.hbm, 31, rfl⟩
abbrev main_c_3 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_c_4 : Ref sig .tc := ⟨.hbm, 38, rfl⟩
abbrev main_v22 : Ref sig .tc := ⟨.hbm, 39, rfl⟩
abbrev main_v23 : Ref sig .tc := ⟨.hbm, 40, rfl⟩
abbrev main_c_5 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_c_6 : Ref sig .tc := ⟨.hbm, 50, rfl⟩
abbrev main_v32 : Ref sig .tc := ⟨.hbm, 51, rfl⟩
abbrev main_v33 : Ref sig .tc := ⟨.hbm, 52, rfl⟩
abbrev main_c_7 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_cst_8 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_call1_cst : Ref sig .tc := ⟨.hbm, 69, rfl⟩
abbrev main_call1_v0 : Ref sig .tc := ⟨.hbm, 70, rfl⟩
abbrev main_v48 : Ref sig .tc := ⟨.hbm, 71, rfl⟩
abbrev main_cst_9 : Ref sig .tc := ⟨.hbm, 72, rfl⟩
abbrev main_v49 : Ref sig .tc := ⟨.hbm, 73, rfl⟩
abbrev main_v50 : Ref sig .tc := ⟨.hbm, 74, rfl⟩
abbrev main_cst_10 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_cst_11 : Ref sig .tc := ⟨.hbm, 81, rfl⟩
abbrev main_v56 : Ref sig .tc := ⟨.hbm, 82, rfl⟩
abbrev main_v57 : Ref sig .tc := ⟨.hbm, 83, rfl⟩
abbrev main_cst_12 : Ref sig .tc := ⟨.hbm, 84, rfl⟩
abbrev main_v58 : Ref sig .tc := ⟨.hbm, 85, rfl⟩
abbrev main_v59 : Ref sig .tc := ⟨.hbm, 86, rfl⟩
abbrev main_v60 : Ref sig .tc := ⟨.hbm, 87, rfl⟩
abbrev main_v61 : Ref sig .tc := ⟨.hbm, 88, rfl⟩
abbrev main_cst_13 : Ref sig .tc := ⟨.hbm, 89, rfl⟩
abbrev main_v62 : Ref sig .tc := ⟨.hbm, 90, rfl⟩
abbrev main_v63 : Ref sig .tc := ⟨.hbm, 91, rfl⟩
abbrev main_v64 : Ref sig .tc := ⟨.hbm, 92, rfl⟩
abbrev main_v65 : Ref sig .tc := ⟨.hbm, 93, rfl⟩
abbrev main_v66 : Ref sig .tc := ⟨.hbm, 94, rfl⟩
abbrev main_v67 : Ref sig .tc := ⟨.hbm, 95, rfl⟩
abbrev main_v68 : Ref sig .tc := ⟨.hbm, 96, rfl⟩
abbrev main_v69 : Ref sig .tc := ⟨.hbm, 97, rfl⟩
abbrev main_v70 : Ref sig .tc := ⟨.hbm, 98, rfl⟩
abbrev main_v71 : Ref sig .tc := ⟨.hbm, 99, rfl⟩
abbrev main_v72 : Ref sig .tc := ⟨.hbm, 100, rfl⟩
abbrev main_v73 : Ref sig .tc := ⟨.hbm, 101, rfl⟩
abbrev main_cst_14 : Ref sig .tc := ⟨.hbm, 102, rfl⟩
abbrev main_v74 : Ref sig .tc := ⟨.hbm, 103, rfl⟩
abbrev main_v75 : Ref sig .tc := ⟨.hbm, 104, rfl⟩
abbrev main_cst_15 : Ref sig .tc := ⟨.hbm, 105, rfl⟩
abbrev main_v76 : Ref sig .tc := ⟨.hbm, 106, rfl⟩
abbrev main_v77 : Ref sig .tc := ⟨.hbm, 107, rfl⟩
abbrev main_v78 : Ref sig .tc := ⟨.hbm, 108, rfl⟩
abbrev main_v79 : Ref sig .tc := ⟨.hbm, 109, rfl⟩
abbrev main_v80 : Ref sig .tc := ⟨.hbm, 110, rfl⟩
abbrev main_cst_16 : Ref sig .tc := ⟨.hbm, 111, rfl⟩
abbrev main_v81 : Ref sig .tc := ⟨.hbm, 112, rfl⟩
abbrev main_v82 : Ref sig .tc := ⟨.hbm, 113, rfl⟩
abbrev main_cst_17 : Ref sig .tc := ⟨.hbm, 114, rfl⟩
abbrev main_v83 : Ref sig .tc := ⟨.hbm, 115, rfl⟩
abbrev main_v84 : Ref sig .tc := ⟨.hbm, 116, rfl⟩
abbrev main_v85 : Ref sig .tc := ⟨.hbm, 117, rfl⟩
abbrev main_v86 : Ref sig .tc := ⟨.hbm, 118, rfl⟩
abbrev main_cst_18 : Ref sig .tc := ⟨.hbm, 119, rfl⟩
abbrev main_v87 : Ref sig .tc := ⟨.hbm, 120, rfl⟩
abbrev main_v88 : Ref sig .tc := ⟨.hbm, 121, rfl⟩
abbrev main_v89 : Ref sig .tc := ⟨.hbm, 122, rfl⟩
abbrev main_v90 : Ref sig .tc := ⟨.hbm, 123, rfl⟩
abbrev main_v91 : Ref sig .tc := ⟨.hbm, 124, rfl⟩
abbrev main_v92 : Ref sig .tc := ⟨.hbm, 125, rfl⟩
abbrev main_v93 : Ref sig .tc := ⟨.hbm, 126, rfl⟩
abbrev main_v94 : Ref sig .tc := ⟨.hbm, 127, rfl⟩
abbrev main_v95 : Ref sig .tc := ⟨.hbm, 128, rfl⟩
abbrev main_v96 : Ref sig .tc := ⟨.hbm, 129, rfl⟩
abbrev main_v97 : Ref sig .tc := ⟨.hbm, 130, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  transposes_S128x128_S128x128_1_0 : S128x128.Transposes [1, 0] S128x128
  bcast_S1700000x1_S1700000x128_0_1 : S1700000x1.BroadcastsInDim S1700000x128 (![0, 1] : Fin 2 → Fin S1700000x128.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  reducesTo_S100000x128_S100000_d1 : S100000x128.ReducesTo [1] S100000
  h_S_ : 0 < S_.numel
  bcast_S100000_S100000x1_0 : S100000.BroadcastsInDim S100000x1 (![0] : Fin 1 → Fin S100000x1.rank)
  bcast_S_S100000x1 : S_.BroadcastsInDim S100000x1 (![] : Fin 0 → Fin S100000x1.rank)
  bcast_S100000x1_S100000x128_0_1 : S100000x1.BroadcastsInDim S100000x128 (![0, 1] : Fin 2 → Fin S100000x128.rank)
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S100000x128_S128x128_S100000x128_1_0_0_1_n_n_wf : DotDims.WF S100000x128 S128x128 S100000x128 [1] [0] [0] [1] [] []
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf

class Facts : Prop extends Facts₀ where

variable [Facts]
-- ==== Proof.LibRowwise.lean ====
/-
  Rank-2 vectors read row by row, at the extended reals, for any sizes.

    * a plain matrix product `[M, K] × [K, N]` into a zero accumulator, at `(p, q)`: `∑ₖ a(p, k) · b(k, q)`;
    * a sum over the lanes (axis 1) of an `[A, B]` vector, at row `p`: `∑ₖ v(p, k)`;
    * a maximum over the lanes, at row `p`: the fold of `max` from the starting word's value over `v(p, ·)`;
    * the cast of a length-`A` vector to a column `[A, 1]`, at `(p, u)`: the vector at `p`;
    * the broadcast of a column `[A, 1]` along the lanes to `[A, B]`, at `(p, q)`: the column at `(p, 0)`.

  A dimension-numbers record that contracts the left operand's axis 1 with the right operand's axis 0 and has no batch
  axes IS the plain record (`eq_plain`), so the product lemma serves every such record a program prints.
-/
import Idealize.ShloMosaic.PureOps.Ideal.Laws
import Idealize.ShloMosaic.Lib.ValueIdx
import Idealize.ShloMosaic.Lib.Pipeline.Value

noncomputable section

namespace Cert.Lib.Rowwise

open Idealize.ShloMosaic Idealize.ShloMosaic.ValueIdx

/-! ## The plain matrix product -/

section Dot

variable {M K N : Nat}

/-- A record over `[M, K]`, `[K, N]`, `[M, N]` whose six lists are the plain product's is the plain record. -/
theorem eq_plain (D : DotDims ⟨2, ![M, K]⟩ ⟨2, ![K, N]⟩ ⟨2, ![M, N]⟩) (h1 : D.lhsContracting = [1]) (h2 : D.rhsContracting = [0])
    (h3 : D.lhsNonContracting = [0]) (h4 : D.rhsNonContracting = [1]) (h5 : D.lhsBatch = []) (h6 : D.rhsBatch = []) :
    D = DotDims.plain M K N := by
  cases D
  simp only at h1 h2 h3 h4 h5 h6
  subst h1 h2 h3 h4 h5 h6
  rfl

theorem plain_lhs0 (j : (⟨2, ![M, N]⟩ : Shape).Idx) (q : (DotDims.plain M K N).contr.Idx) :
    ((DotDims.plain M K N).lhsIdx j q 0).val = (j 0).val := rfl
theorem plain_lhs1 (j : (⟨2, ![M, N]⟩ : Shape).Idx) (q : (DotDims.plain M K N).contr.Idx) :
    ((DotDims.plain M K N).lhsIdx j q 1).val = (q ⟨0, Nat.one_pos⟩).val := rfl
theorem plain_rhs0 (j : (⟨2, ![M, N]⟩ : Shape).Idx) (q : (DotDims.plain M K N).contr.Idx) :
    ((DotDims.plain M K N).rhsIdx j q 0).val = (q ⟨0, Nat.one_pos⟩).val := rfl
theorem plain_rhs1 (j : (⟨2, ![M, N]⟩ : Shape).Idx) (q : (DotDims.plain M K N).contr.Idx) :
    ((DotDims.plain M K N).rhsIdx j q 1).val = (j 1).val := rfl

/-- The plain product into the zero word, read at `(p, q)`: the sum over the contracted coordinate. -/
theorem plain_matmul_zero_apply {φ₁ φ₂ : FTy} (prec : Option ContractPrecision) (a : FVec Ideal ⟨2, ![M, K]⟩ φ₁)
    (b : FVec Ideal ⟨2, ![K, N]⟩ φ₂) (p : Fin M) (q : Fin N) :
    FloatOps.matmul (DotDims.plain M K N) prec a b (constant ⟨2, ![M, N]⟩ .f32 0x00000000#32) (ix2 p q)
      = ∑ k : Fin K, a (ix2 p k) * b (ix2 k q) := by
  rw [Ideal.matmul_constant_zero_apply, ← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 p q) ((contrEquiv1 (DotDims.plain M K N) K rfl rfl).symm k) = ix2 p k :=
    funext fun a => Fin.ext (by
      match a with
      | ⟨0, _⟩ => exact plain_lhs0 _ _
      | ⟨1, _⟩ => exact (plain_lhs1 _ _).trans hk)
  have er : (DotDims.plain M K N).rhsIdx (ix2 p q) ((contrEquiv1 (DotDims.plain M K N) K rfl rfl).symm k) = ix2 k q :=
    funext fun a => Fin.ext (by
      match a with
      | ⟨0, _⟩ => exact (plain_rhs0 _ _).trans hk
      | ⟨1, _⟩ => exact plain_rhs1 _ _)
  rw [el, er]

end Dot

/-! ## Lane reductions -/

section Lanes

variable {A B : Nat} {φ : FTy}

/-- Row `p` with lane `k` put back is `(p, k)`. -/
theorem lift_row (h : (⟨2, ![A, B]⟩ : Shape).Reduces [1] ⟨1, ![A]⟩) (p : Fin A) (k : Fin B) :
    h.lift (ix1 p) k = ix2 p k :=
  funext fun a => Fin.ext (by match a with | ⟨0, _⟩ => rfl | ⟨1, _⟩ => rfl)

/-- A lane sum at row `p`. -/
theorem laneSum_apply (src : FVec Ideal ⟨2, ![A, B]⟩ φ) (acc : BitVec φ.bits) (h : (⟨2, ![A, B]⟩ : Shape).Reduces [1] ⟨1, ![A]⟩)
    (hφ : FKind.Formats φ) (hacc : acc = FKind.add.neutral φ hφ) (p : Fin A) :
    multiReduction .add [1] ⟨1, ![A]⟩ src acc h hφ hacc (ix1 p) = ∑ k : Fin B, src (ix2 p k) := by
  rw [Ideal.multiReduction_add_single]
  exact Finset.sum_congr rfl fun k _ => congrArg src (lift_row h p k)

/-- A lane maximum at row `p`: the fold of `max` from the starting word's value. -/
theorem laneMax_apply (src : FVec Ideal ⟨2, ![A, B]⟩ φ) (acc : BitVec φ.bits) (h : (⟨2, ![A, B]⟩ : Shape).Reduces [1] ⟨1, ![A]⟩)
    (hφ : FKind.Formats φ) (hacc : acc = FKind.maximumf.neutral φ hφ) (p : Fin A) :
    multiReduction .maximumf [1] ⟨1, ![A]⟩ src acc h hφ hacc (ix1 p)
      = (Finset.univ : Finset (Fin B)).fold max (Ideal.ofBits φ acc) (fun k => src (ix2 p k)) := by
  rw [Ideal.multiReduction_maximumf_single]
  have e : (src ∘ h.lift (ix1 p)) = fun k => src (ix2 p k) := funext fun k => congrArg src (lift_row h p k)
  rw [e]
  rfl

end Lanes

/-! ## Columns -/

section Columns

variable {A B : Nat} {α : Type}

/-- A length-`A` vector cast to a column reads, at `(p, u)`, the vector at `p`. -/
theorem column_apply (v : (⟨1, ![A]⟩ : Shape).Idx → α) (h : (⟨1, ![A]⟩ : Shape).ShapeCasts ⟨2, ![A, 1]⟩) (p : Fin A) (u : Fin 1) :
    shapeCast ⟨2, ![A, 1]⟩ v h (ix2 p u) = v (ix1 p) := by
  refine shapeCast_apply v h (ix2 p u) (ix1 p) ?_
  rw [Shape.rowMajor_val_one, Shape.rowMajor_val_two]
  have hu : u.val = 0 := by omega
  show p.val = p.val * 1 + u.val
  omega

/-- A column broadcast along the lanes reads, at `(p, q)`, the column at `(p, 0)`. -/
theorem columnBroadcast_apply (v : (⟨2, ![A, 1]⟩ : Shape).Idx → α) (h : (⟨2, ![A, 1]⟩ : Shape).Broadcasts ⟨2, ![A, B]⟩)
    (hA : A ≠ 1) (p : Fin A) (q : Fin B) : broadcastTo ⟨2, ![A, B]⟩ v h (ix2 p q) = v (ix2 p 0) := by
  refine broadcastTo_apply v h (ix2 p q) (ix2 p 0) fun a => ?_
  match a with
  | ⟨0, _⟩ => exact (if_neg hA).symm
  | ⟨1, _⟩ => exact (if_pos rfl).symm

end Columns

end Cert.Lib.Rowwise

end
-- ==== Proof.Spec.lean ====
/-
  The mathematics of one row, at the extended reals.

  Both programs end with the same row-wise chain on a row of 128 lanes: add a bias and clamp at zero, normalise the row
  (subtract the mean of its 128 entries, multiply by the reciprocal square root of the mean squared deviation plus a small
  constant, scale and shift lane by lane), add the matching row of the input, and normalise again. The sums run over
  the 128 lanes of ONE row, so the result at row `r` depends on row `r` of its operands only: that is why a program
  that works on blocks of 5000 rows and one that works on all 100000 rows at once compute the same array.
  The three constants are kept as the binary words both programs print: 128, the small constant, and zero.
-/
import Idealize.ShloMosaic.PureOps.Ideal
import Idealize.ShloMosaic.Lib.ValueIdx

noncomputable section

namespace Cert.Spec

open Idealize.ShloMosaic

/-- A row of 128 lanes. -/
abbrev Row := Fin 128 → EReal

/-- The number of lanes, 128, as both programs print it. -/
def lanes : EReal := Ideal.ofBits .f32 0x43000000#32
/-- The small constant added to a variance, as both programs print it. -/
def tiny : EReal := Ideal.ofBits .f32 0x3727C5AC#32

/-- The mean of a row: its sum over the lanes, divided by 128. -/
def mean (v : Row) : EReal := Ideal.div (∑ k, v k) lanes

/-- A row normalised, scaled by `g` and shifted by `s`, at lane `j`. -/
def norm (v g s : Row) (j : Fin 128) : EReal :=
  (v j - mean v) * Ideal.rsqrt (mean (fun k => (v k - mean v) * (v k - mean v)) + tiny) * g j + s j

/-- A row plus a bias, clamped below at zero. -/
def biasRelu (h b : Row) : Row := fun k => max (h k + b k) 0

/-- The whole chain on one row: the aggregated row `h` gets its bias and its clamp and is normalised; the input row `x`
    is added; the sum is normalised again. -/
def fused (h x b g1 s1 g2 s2 : Row) : Row :=
  norm (fun k => x k + norm (biasRelu h b) g1 s1 k) g2 s2

/-! ## The two whole arrays -/

/-- The product of the whole 100000 × 128 input with a 128 × 128 matrix: at (r, j) the sum over k of x(r, k) · w(k, j). -/
def Lin (x : (⟨2, ![100000, 128]⟩ : Shape).Idx → EReal) (w : (⟨2, ![128, 128]⟩ : Shape).Idx → EReal) :
    (⟨2, ![100000, 128]⟩ : Shape).Idx → EReal :=
  fun i => ∑ k : Fin 128, x (ValueIdx.ix2 (i 0) k) * w (ValueIdx.ix2 k (i 1))

/-- The row chain applied to every row of the aggregated array `h` and the input `x`, with the five parameter rows. -/
def Fus (h x : (⟨2, ![100000, 128]⟩ : Shape).Idx → EReal) (b g1 s1 g2 s2 : Row) :
    (⟨2, ![100000, 128]⟩ : Shape).Idx → EReal :=
  fun i => fused (fun k => h (ValueIdx.ix2 (i 0) k)) (fun k => x (ValueIdx.ix2 (i 0) k)) b g1 s1 g2 s2 (i 1)

end Cert.Spec

end
-- ==== Proof.KernelBody.lean ====
/-
  What each of the two kernel bodies stores, read at one element, at the extended reals.

  The first body multiplies its block of 5000 rows of the input by the whole 128 × 128 matrix: the element at (p, q) is the
  sum over k of block(p, k) · matrix(k, q); the narrowing of both operands to a shorter float format before the product is
  the identity at the extended reals, and the accumulator starts at zero.
  The second body works row by row on its blocks: the element at (p, q) is the row chain `Spec.fused` of row p of the
  aggregated block and of the input block and of the five one-row parameter blocks, at lane q.
-/
import proofs.«115066_j32736240730563_1_alg».proof.Proof.Gen.KernelIdeal.Skeleton
import proofs.«115066_j32736240730563_1_alg».proof.Proof.LibRowwise
import proofs.«115066_j32736240730563_1_alg».proof.Proof.Spec
import Idealize.ShloMosaic.Lib.ValueLayout

noncomputable section

namespace Cert.KernelBody

open Idealize.ShloMosaic Idealize.ShloMosaic.ValueIdx Cert.KernelIdeal Cert.KernelIdeal.Gen Cert.Lib.Rowwise

/-! ## The first body: a block of rows times the matrix -/

theorem linear_apply (a : Vec Ideal S5000x128 .f32) (w : Vec Ideal S128x128 .f32) (p : Fin 5000) (q : Fin 128) :
    k0_pay1 (F := Ideal) a w (ix2 p q) = ∑ k : Fin 128, a (ix2 p k) * w (ix2 k q) := by
  unfold k0_pay1
  have hD : dot_S5000x128_S128x128_S5000x128_1_0_0_1_n_n = DotDims.plain 5000 128 128 := eq_plain _ rfl rfl rfl rfl rfl rfl
  show FloatOps.matmul dot_S5000x128_S128x128_S5000x128_1_0_0_1_n_n none _ _ (constant S5000x128 .f32 0x00000000#32) (ix2 p q) = _
  rw [hD, plain_matmul_zero_apply]
  refine Finset.sum_congr rfl fun k _ => ?_
  rw [truncf_apply, truncf_apply, shapeCast_self]

/-! ## Pieces of the second body, for any number of rows -/

section Pieces

variable {A : Nat}

/-- A row's mean as the body computes it: the lane sum, cast to a column, divided by the constant 128. (The starting word of
    the sum is the zero word, and the printed program carries that as the plain equation of the word with itself.) -/
theorem rowMean_apply (v : FVec Ideal ⟨2, ![A, 128]⟩ .f32) (hr : (⟨2, ![A, 128]⟩ : Shape).Reduces [1] ⟨1, ![A]⟩)
    (hφ : FTy.f32 = FTy.f32 ∨ FTy.f32 = FTy.bf16) (hacc : (0x00000000#32 : BitVec 32) = 0x00000000#32)
    (hc : (⟨1, ![A]⟩ : Shape).ShapeCasts ⟨2, ![A, 1]⟩) (p : Fin A) (u : Fin 1) :
    divf (shapeCast ⟨2, ![A, 1]⟩ (multiReduction .add [1] ⟨1, ![A]⟩ v 0x00000000#32 hr hφ hacc) hc)
        (broadcast ⟨2, ![A, 1]⟩ (Ideal.ofBits .f32 0x43000000#32)) (ix2 p u)
      = Spec.mean (fun k => v (ix2 p k)) := by
  rw [divf_apply, column_apply]
  exact congrArg (fun s => Ideal.div s Spec.lanes) (laneSum_apply v 0x00000000#32 hr hφ hacc p)

/-- One parameter row, cast to itself and broadcast over the rows, read at (p, q): the row at lane q. -/
theorem paramRow_apply (r : Vec Ideal ⟨2, ![1, 128]⟩ .f32) (hs : (⟨2, ![1, 128]⟩ : Shape).ShapeCasts ⟨2, ![1, 128]⟩)
    (hb : (⟨2, ![1, 128]⟩ : Shape).Broadcasts ⟨2, ![A, 128]⟩) (p : Fin A) (q : Fin 128) :
    broadcastTo ⟨2, ![A, 128]⟩ (shapeCast ⟨2, ![1, 128]⟩ r hs) hb (ix2 p q) = r (ix2 (0 : Fin 1) q) := by
  rw [broadcastTo_1b_ab_apply, shapeCast_self]

end Pieces

/-! ## The second body -/

theorem rsqrt_apply {s : Shape} {φ : FTy} (a : FVec Ideal s φ) (i : s.Idx) : rsqrt a i = Ideal.rsqrt (a i) := rfl

/-- A column of 5000 broadcast along the lanes, at (p, q): the column at (p, 0). -/
theorem colBroadcast_apply (v : (⟨2, ![5000, 1]⟩ : Shape).Idx → EReal) (h : (⟨2, ![5000, 1]⟩ : Shape).Broadcasts ⟨2, ![5000, 128]⟩)
    (p : Fin 5000) (q : Fin 128) : broadcastTo ⟨2, ![5000, 128]⟩ v h (ix2 p q) = v (ix2 p (0 : Fin 1)) :=
  columnBroadcast_apply v h (by decide) p q

/-- The value the second body adds its input block to, plus that block: the bias, the clamp and the first normalisation. -/
theorem pay2_apply (v0 : Vec Ideal S5000x128 .f32) (v2 v26 v30 : Vec Ideal S1x128 .f32) (v34 : Vec Ideal S5000x128 .f32)
    (p : Fin 5000) (q : Fin 128) :
    k1_pay2 (F := Ideal) v0 v2 v26 v30 v34 (ix2 p q)
      = v34 (ix2 p q) + Spec.norm (Spec.biasRelu (fun k => v0 (ix2 p k)) (fun k => v2 (ix2 (0 : Fin 1) k)))
          (fun k => v26 (ix2 (0 : Fin 1) k)) (fun k => v30 (ix2 (0 : Fin 1) k)) q := by
  unfold k1_pay2
  simp only [addf_apply, mulf_apply, subf_apply, maximumf_apply, broadcast_apply, shapeCast_self, broadcastTo_1b_ab_apply,
    colBroadcast_apply, rsqrt_apply, rowMean_apply (A := 5000), Ideal.ofBits_def, Ideal.ofBits_zero_f32]
  rfl

/-- The second body's stored value at (p, q): the whole row chain of row p, at lane q. -/
theorem fused_apply (x0 x1 : Vec Ideal S5000x128 .f32) (x2 x3 x4 x5 x6 : Vec Ideal S1x128 .f32) (p : Fin 5000) (q : Fin 128) :
    k1_pay1 (F := Ideal) (k1_pay2 x0 x2 x3 x4 x1) (k1_pay3 x0 x2 x3 x4 x1) (k1_pay4 x0 x2 x3 x4 x1) x5 x6 (ix2 p q)
      = Spec.fused (fun k => x0 (ix2 p k)) (fun k => x1 (ix2 p k)) (fun k => x2 (ix2 (0 : Fin 1) k))
          (fun k => x3 (ix2 (0 : Fin 1) k)) (fun k => x4 (ix2 (0 : Fin 1) k)) (fun k => x5 (ix2 (0 : Fin 1) k))
          (fun k => x6 (ix2 (0 : Fin 1) k)) q := by
  unfold k1_pay1 k1_pay4 k1_pay3
  simp only [addf_apply, mulf_apply, subf_apply, broadcast_apply, shapeCast_self, broadcastTo_1b_ab_apply,
    colBroadcast_apply, rsqrt_apply, rowMean_apply (A := 5000), Ideal.ofBits_def, pay2_apply]
  rfl

end Cert.KernelBody

end
-- ==== Proof.KernelBlocks.lean ====
/-
  Each region's output array as ONE function of the arrays the region finds, at the extended reals.

  Both regions walk the 100000 rows in 20 blocks of 5000; point `t` reads rows 5000·t … 5000·t + 4999 of its row-tiled
  operands and the whole of its small operands (the matrix; the one-row parameters), and writes back the same rows of its
  output. Row `p` of block `t` is row 5000·t + p of the array, and every row lies in exactly one block, so the output
  array is, index by index:
    * first region: `Lin x w (r, j) = ∑ₖ x(r, k) · w(k, j)`;
    * second region: `Fus h x b g1 s1 g2 s2 (r, j)` = the row chain `Spec.fused` of row `r` of `h` and of `x` and of the
      five parameter rows, at lane `j`.
-/
import proofs.«115066_j32736240730563_1_alg».proof.Proof.Gen.KernelIdeal.Frame
import proofs.«115066_j32736240730563_1_alg».proof.Proof.KernelBody
import Idealize.ShloMosaic.Lib.Pipeline.Value

set_option maxRecDepth 16384

noncomputable section

namespace Cert.KernelIdeal.Blocks

open Idealize.ShloMosaic Idealize.ShloMosaic.TcCoe Idealize.ShloMosaic.ValueIdx Idealize.SL.Sem
open Idealize.ShloMosaic.Pipeline (Dat Cfg Window)
open Cert.KernelIdeal Cert.KernelIdeal.Gen

open Cert.Spec (Lin Fus)

theorem hz : (![0, 0] : Fin 2 → Nat) = fun _ => 0 := funext fun a => by fin_cases a <;> rfl

/-- Row `p` of block `t`, as a row of the array. -/
def row (t p : Nat) (ht : t < 20) (hp : p < 5000) : Fin 100000 := ⟨t * 5000 + p, by omega⟩

variable (V : (c : Dev nD) → (b : Ref sig .tc) → Buf (Elt Ideal) ((c : Thread nD τ).loc b))

/-! ## First region -/

/-- The printed index maps over the grid: the row-tiled windows sit at block (t, 0), the matrix at block (0, 0). -/
theorem idx0 : ∀ t : Fin cfg0.N, t.val < 20
    ∧ win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- The input block and the matrix block at a point, at their literal types. -/
abbrev xblk0 (c : Dev nD) (t : Fin cfg0.N) : Vec Ideal S5000x128 .f32 := iblk0 V c 0 t
abbrev wblk0 (c : Dev nD) (t : Fin cfg0.N) : Vec Ideal S128x128 .f32 := iblk0 V c 1 t

theorem xblk0_apply (c : Dev nD) (t : Fin cfg0.N) (p : Fin 5000) (k : Fin 128) :
    xblk0 V c t (ix2 p k) = V c main_arg0 (ix2 (row t.val p.val (idx0 t).1 p.isLt) k) := by
  show V c main_arg0 (((cfg0.win 0).blk t).view.emb (ix2 p k)) = _
  refine congrArg _ (funext fun a => Fin.ext ?_)
  obtain ⟨_, e0, e1, _⟩ := idx0 t
  match a with
  | ⟨0, _⟩ => show win0_0.index t (0 : Fin 2) * 5000 + 1 * p.val = t.val * 5000 + p.val; rw [e0]; omega
  | ⟨1, _⟩ => show win0_0.index t (1 : Fin 2) * 128 + 1 * k.val = k.val; rw [e1]; omega

theorem wblk0_apply (c : Dev nD) (t : Fin cfg0.N) (k q : Fin 128) :
    wblk0 V c t (ix2 k q) = V c main_v30 (ix2 k q) := by
  show V c main_v30 (((cfg0.win 1).blk t).view.emb (ix2 k q)) = _
  refine congrArg _ (funext fun a => Fin.ext ?_)
  obtain ⟨_, _, _, e0, e1, _⟩ := idx0 t
  match a with
  | ⟨0, _⟩ => show win0_1.index t (0 : Fin 2) * 128 + 1 * k.val = k.val; rw [e0]; omega
  | ⟨1, _⟩ => show win0_1.index t (1 : Fin 2) * 128 + 1 * q.val = q.val; rw [e1]; omega

theorem emb0 (t : Fin cfg0.N) (p : Fin 5000) (q : Fin 128) :
    ((cfg0.win 2).blk t).view.emb (ix2 p q) = ix2 (row t.val p.val (idx0 t).1 p.isLt) q := by
  refine funext fun a => Fin.ext ?_
  obtain ⟨_, _, _, _, _, e0, e1⟩ := idx0 t
  match a with
  | ⟨0, _⟩ => show win0_2.index t (0 : Fin 2) * 5000 + 1 * p.val = t.val * 5000 + p.val; rw [e0]; omega
  | ⟨1, _⟩ => show win0_2.index t (1 : Fin 2) * 128 + 1 * q.val = q.val; rw [e1]; omega

/-- What point `t` writes back is block `t` of the product array. -/
theorem flushed0 (c : Dev nD) (t : Fin cfg0.N) :
    (dat0 V c).flushed 2 t = ((cfg0.win 2).blk t).view.read (Elt Ideal) (Lin (V c main_arg0) (V c main_v30)) := by
  show (cfg0.win 2).cut (grid0.coords t) ((dat0 V c).after 2 t) = _
  rw [after0_2]
  unfold out0_2
  rw [View.canon_unit_zero hz]
  simp only [View.ld_unit_zero (S := S5000x128) hz, View.ld_unit_zero (S := S128x128) hz]
  funext j
  obtain ⟨p, q, rfl⟩ : ∃ (p : Fin 5000) (q : Fin 128), j = ix2 p q := ⟨j 0, j 1, eq_ix2 j⟩
  show k0_pay1 (xblk0 V c t) (wblk0 V c t) (ix2 p q)
    = Lin (V c main_arg0) (V c main_v30) (((cfg0.win 2).blk t).view.emb (ix2 p q))
  rw [emb0]
  refine (Cert.KernelBody.linear_apply (xblk0 V c t) (wblk0 V c t) p q).trans ?_
  unfold Lin
  refine Finset.sum_congr rfl fun k _ => ?_
  rw [xblk0_apply, wblk0_apply]

/-- An index of the array is in point `t`'s block iff each coordinate is in the block's range. -/
theorem mem_blk0 (t : Fin cfg0.N) (i : S100000x128.Idx) :
    i ∈ ((cfg0.win 2).blk t).view.set ↔ ∀ a : Fin 2, win0_2.index t a * S5000x128.size a ≤ (i a).val ∧ (i a).val < win0_2.index t a * S5000x128.size a + S5000x128.size a := by
  show i ∈ ((View.whole main_v31).slice (win0_2.rect t)).set ↔ _
  rw [View.set_slice_whole, Rect.mem_set_unit]
  exact Iff.rfl

theorem cover0 (i : S100000x128.Idx) : ∃ t : Fin cfg0.N, (cfg0.win 2).flush t = true ∧ i ∈ ((cfg0.win 2).blk t).view.set := by
  have hi0 : (i 0).val < 100000 := (i 0).isLt
  have hi1 : (i 1).val < 128 := (i 1).isLt
  have hN : cfg0.N = 20 := N_0
  let t : Fin cfg0.N := ⟨(i 0).val / 5000, by rw [hN]; omega⟩
  obtain ⟨_, _, _, _, _, e0, e1⟩ := idx0 t
  have ht : t.val = (i 0).val / 5000 := rfl
  refine ⟨t, flush0_2 t, ?_⟩
  rw [mem_blk0]
  intro a
  match a with
  | ⟨0, _⟩ => show win0_2.index t (0 : Fin 2) * 5000 ≤ (i 0).val ∧ (i 0).val < win0_2.index t (0 : Fin 2) * 5000 + 5000; rw [e0, ht]; omega
  | ⟨1, _⟩ => show win0_2.index t (1 : Fin 2) * 128 ≤ (i 1).val ∧ (i 1).val < win0_2.index t (1 : Fin 2) * 128 + 128; rw [e1]; omega

/-- The first region's output array after its run. -/
theorem arr0 (c : Dev nD) : (dat0 V c).arrAt 2 cfg0.N = Lin (V c main_arg0) (V c main_v30) :=
  (dat0 V c).arrAt_eq_of_cover 2 (Lin (V c main_arg0) (V c main_v30)) (fun t _ => flushed0 V c t) cover0

/-! ## Second region -/

/-- The printed index maps over the grid: the row-tiled windows sit at block (t, 0), the one-row parameters at block (0, 0). -/
theorem idx1 : ∀ t : Fin cfg1.N, t.val < 20
    ∧ win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = 0 ∧ win1_6.index t (1 : Fin 2) = 0
    ∧ win1_7.index t (0 : Fin 2) = t.val ∧ win1_7.index t (1 : Fin 2) = 0 :=
  (by decide +kernel : ∀ t : Fin grid1.N, _)

/-- The blocks at a point, at their literal types: the aggregated rows, the input rows, the five parameter rows. -/
abbrev hblk1 (c : Dev nD) (t : Fin cfg1.N) : Vec Ideal S5000x128 .f32 := iblk1 V c 0 t
abbrev xblk1 (c : Dev nD) (t : Fin cfg1.N) : Vec Ideal S5000x128 .f32 := iblk1 V c 1 t
abbrev bblk1 (c : Dev nD) (t : Fin cfg1.N) : Vec Ideal S1x128 .f32 := iblk1 V c 2 t
abbrev g1blk1 (c : Dev nD) (t : Fin cfg1.N) : Vec Ideal S1x128 .f32 := iblk1 V c 3 t
abbrev s1blk1 (c : Dev nD) (t : Fin cfg1.N) : Vec Ideal S1x128 .f32 := iblk1 V c 4 t
abbrev g2blk1 (c : Dev nD) (t : Fin cfg1.N) : Vec Ideal S1x128 .f32 := iblk1 V c 5 t
abbrev s2blk1 (c : Dev nD) (t : Fin cfg1.N) : Vec Ideal S1x128 .f32 := iblk1 V c 6 t

theorem hblk1_apply (c : Dev nD) (t : Fin cfg1.N) (p : Fin 5000) (k : Fin 128) :
    hblk1 V c t (ix2 p k) = V c main_v44 (ix2 (row t.val p.val (idx1 t).1 p.isLt) k) := by
  show V c main_v44 (((cfg1.win 0).blk t).view.emb (ix2 p k)) = _
  refine congrArg _ (funext fun a => Fin.ext ?_)
  have e0 := (idx1 t).2.1
  have e1 := (idx1 t).2.2.1
  match a with
  | ⟨0, _⟩ => show win1_0.index t (0 : Fin 2) * 5000 + 1 * p.val = t.val * 5000 + p.val; rw [e0]; omega
  | ⟨1, _⟩ => show win1_0.index t (1 : Fin 2) * 128 + 1 * k.val = k.val; rw [e1]; omega

theorem xblk1_apply (c : Dev nD) (t : Fin cfg1.N) (p : Fin 5000) (k : Fin 128) :
    xblk1 V c t (ix2 p k) = V c main_arg0 (ix2 (row t.val p.val (idx1 t).1 p.isLt) k) := by
  show V c main_arg0 (((cfg1.win 1).blk t).view.emb (ix2 p k)) = _
  refine congrArg _ (funext fun a => Fin.ext ?_)
  have e0 := (idx1 t).2.2.2.1
  have e1 := (idx1 t).2.2.2.2.1
  match a with
  | ⟨0, _⟩ => show win1_1.index t (0 : Fin 2) * 5000 + 1 * p.val = t.val * 5000 + p.val; rw [e0]; omega
  | ⟨1, _⟩ => show win1_1.index t (1 : Fin 2) * 128 + 1 * k.val = k.val; rw [e1]; omega

theorem bblk1_apply (c : Dev nD) (t : Fin cfg1.N) (k : Fin 128) :
    bblk1 V c t (ix2 (0 : Fin 1) k) = V c main_v45 (ix2 (0 : Fin 1) k) := by
  show V c main_v45 (((cfg1.win 2).blk t).view.emb (ix2 (0 : Fin 1) k)) = _
  refine congrArg _ (funext fun a => Fin.ext ?_)
  have e0 := (idx1 t).2.2.2.2.2.1
  have e1 := (idx1 t).2.2.2.2.2.2.1
  match a with
  | ⟨0, _⟩ => show win1_2.index t (0 : Fin 2) * 1 + 1 * 0 = 0; rw [e0]
  | ⟨1, _⟩ => show win1_2.index t (1 : Fin 2) * 128 + 1 * k.val = k.val; rw [e1]; omega

theorem g1blk1_apply (c : Dev nD) (t : Fin cfg1.N) (k : Fin 128) :
    g1blk1 V c t (ix2 (0 : Fin 1) k) = V c main_v46 (ix2 (0 : Fin 1) k) := by
  show V c main_v46 (((cfg1.win 3).blk t).view.emb (ix2 (0 : Fin 1) k)) = _
  refine congrArg _ (funext fun a => Fin.ext ?_)
  have e0 := (idx1 t).2.2.2.2.2.2.2.1
  have e1 := (idx1 t).2.2.2.2.2.2.2.2.1
  match a with
  | ⟨0, _⟩ => show win1_3.index t (0 : Fin 2) * 1 + 1 * 0 = 0; rw [e0]
  | ⟨1, _⟩ => show win1_3.index t (1 : Fin 2) * 128 + 1 * k.val = k.val; rw [e1]; omega

theorem s1blk1_apply (c : Dev nD) (t : Fin cfg1.N) (k : Fin 128) :
    s1blk1 V c t (ix2 (0 : Fin 1) k) = V c main_v47 (ix2 (0 : Fin 1) k) := by
  show V c main_v47 (((cfg1.win 4).blk t).view.emb (ix2 (0 : Fin 1) k)) = _
  refine congrArg _ (funext fun a => Fin.ext ?_)
  have e0 := (idx1 t).2.2.2.2.2.2.2.2.2.1
  have e1 := (idx1 t).2.2.2.2.2.2.2.2.2.2.1
  match a with
  | ⟨0, _⟩ => show win1_4.index t (0 : Fin 2) * 1 + 1 * 0 = 0; rw [e0]
  | ⟨1, _⟩ => show win1_4.index t (1 : Fin 2) * 128 + 1 * k.val = k.val; rw [e1]; omega

theorem g2blk1_apply (c : Dev nD) (t : Fin cfg1.N) (k : Fin 128) :
    g2blk1 V c t (ix2 (0 : Fin 1) k) = V c main_v48 (ix2 (0 : Fin 1) k) := by
  show V c main_v48 (((cfg1.win 5).blk t).view.emb (ix2 (0 : Fin 1) k)) = _
  refine congrArg _ (funext fun a => Fin.ext ?_)
  have e0 := (idx1 t).2.2.2.2.2.2.2.2.2.2.2.1
  have e1 := (idx1 t).2.2.2.2.2.2.2.2.2.2.2.2.1
  match a with
  | ⟨0, _⟩ => show win1_5.index t (0 : Fin 2) * 1 + 1 * 0 = 0; rw [e0]
  | ⟨1, _⟩ => show win1_5.index t (1 : Fin 2) * 128 + 1 * k.val = k.val; rw [e1]; omega

theorem s2blk1_apply (c : Dev nD) (t : Fin cfg1.N) (k : Fin 128) :
    s2blk1 V c t (ix2 (0 : Fin 1) k) = V c main_v49 (ix2 (0 : Fin 1) k) := by
  show V c main_v49 (((cfg1.win 6).blk t).view.emb (ix2 (0 : Fin 1) k)) = _
  refine congrArg _ (funext fun a => Fin.ext ?_)
  have e0 := (idx1 t).2.2.2.2.2.2.2.2.2.2.2.2.2.1
  have e1 := (idx1 t).2.2.2.2.2.2.2.2.2.2.2.2.2.2.1
  match a with
  | ⟨0, _⟩ => show win1_6.index t (0 : Fin 2) * 1 + 1 * 0 = 0; rw [e0]
  | ⟨1, _⟩ => show win1_6.index t (1 : Fin 2) * 128 + 1 * k.val = k.val; rw [e1]; omega

theorem emb1 (t : Fin cfg1.N) (p : Fin 5000) (q : Fin 128) :
    ((cfg1.win 7).blk t).view.emb (ix2 p q) = ix2 (row t.val p.val (idx1 t).1 p.isLt) q := by
  refine funext fun a => Fin.ext ?_
  have e0 := (idx1 t).2.2.2.2.2.2.2.2.2.2.2.2.2.2.2.1
  have e1 := (idx1 t).2.2.2.2.2.2.2.2.2.2.2.2.2.2.2.2
  match a with
  | ⟨0, _⟩ => show win1_7.index t (0 : Fin 2) * 5000 + 1 * p.val = t.val * 5000 + p.val; rw [e0]; omega
  | ⟨1, _⟩ => show win1_7.index t (1 : Fin 2) * 128 + 1 * q.val = q.val; rw [e1]; omega

/-- The second region's output array as a function of what the region finds. -/
abbrev out1 (c : Dev nD) : S100000x128.Idx → EReal :=
  Fus (V c main_v44) (V c main_arg0) (fun k => V c main_v45 (ix2 (0 : Fin 1) k)) (fun k => V c main_v46 (ix2 (0 : Fin 1) k))
    (fun k => V c main_v47 (ix2 (0 : Fin 1) k)) (fun k => V c main_v48 (ix2 (0 : Fin 1) k)) (fun k => V c main_v49 (ix2 (0 : Fin 1) k))

/-- What point `t` writes back is block `t` of the row chain applied to every row. -/
theorem flushed1 (c : Dev nD) (t : Fin cfg1.N) :
    (dat1 V c).flushed 7 t = ((cfg1.win 7).blk t).view.read (Elt Ideal) (out1 V c) := by
  show (cfg1.win 7).cut (grid1.coords t) ((dat1 V c).after 7 t) = _
  rw [after1_7]
  unfold out1_7
  rw [View.canon_unit_zero hz]
  simp only [View.ld_unit_zero (S := S5000x128) hz, View.ld_unit_zero (S := S1x128) hz]
  funext j
  obtain ⟨p, q, rfl⟩ : ∃ (p : Fin 5000) (q : Fin 128), j = ix2 p q := ⟨j 0, j 1, eq_ix2 j⟩
  show k1_pay1 (k1_pay2 (hblk1 V c t) (bblk1 V c t) (g1blk1 V c t) (s1blk1 V c t) (xblk1 V c t))
      (k1_pay3 (hblk1 V c t) (bblk1 V c t) (g1blk1 V c t) (s1blk1 V c t) (xblk1 V c t))
      (k1_pay4 (hblk1 V c t) (bblk1 V c t) (g1blk1 V c t) (s1blk1 V c t) (xblk1 V c t)) (g2blk1 V c t) (s2blk1 V c t) (ix2 p q)
    = out1 V c (((cfg1.win 7).blk t).view.emb (ix2 p q))
  rw [emb1]
  refine (Cert.KernelBody.fused_apply (hblk1 V c t) (xblk1 V c t) (bblk1 V c t) (g1blk1 V c t) (s1blk1 V c t) (g2blk1 V c t)
    (s2blk1 V c t) p q).trans ?_
  have eh : (fun k => hblk1 V c t (ix2 p k)) = fun k => V c main_v44 (ix2 (row t.val p.val (idx1 t).1 p.isLt) k) :=
    funext fun k => hblk1_apply V c t p k
  have ex : (fun k => xblk1 V c t (ix2 p k)) = fun k => V c main_arg0 (ix2 (row t.val p.val (idx1 t).1 p.isLt) k) :=
    funext fun k => xblk1_apply V c t p k
  have eb : (fun k => bblk1 V c t (ix2 (0 : Fin 1) k)) = fun k => V c main_v45 (ix2 (0 : Fin 1) k) :=
    funext fun k => bblk1_apply V c t k
  have eg1 : (fun k => g1blk1 V c t (ix2 (0 : Fin 1) k)) = fun k => V c main_v46 (ix2 (0 : Fin 1) k) :=
    funext fun k => g1blk1_apply V c t k
  have es1 : (fun k => s1blk1 V c t (ix2 (0 : Fin 1) k)) = fun k => V c main_v47 (ix2 (0 : Fin 1) k) :=
    funext fun k => s1blk1_apply V c t k
  have eg2 : (fun k => g2blk1 V c t (ix2 (0 : Fin 1) k)) = fun k => V c main_v48 (ix2 (0 : Fin 1) k) :=
    funext fun k => g2blk1_apply V c t k
  have es2 : (fun k => s2blk1 V c t (ix2 (0 : Fin 1) k)) = fun k => V c main_v49 (ix2 (0 : Fin 1) k) :=
    funext fun k => s2blk1_apply V c t k
  rw [eh, ex, eb, eg1, es1, eg2, es2]
  rfl

theorem mem_blk1 (t : Fin cfg1.N) (i : S100000x128.Idx) :
    i ∈ ((cfg1.win 7).blk t).view.set ↔ ∀ a : Fin 2, win1_7.index t a * S5000x128.size a ≤ (i a).val ∧ (i a).val < win1_7.index t a * S5000x128.size a + S5000x128.size a := by
  show i ∈ ((View.whole main_v50).slice (win1_7.rect t)).set ↔ _
  rw [View.set_slice_whole, Rect.mem_set_unit]
  exact Iff.rfl

theorem cover1 (i : S100000x128.Idx) : ∃ t : Fin cfg1.N, (cfg1.win 7).flush t = true ∧ i ∈ ((cfg1.win 7).blk t).view.set := by
  have hi0 : (i 0).val < 100000 := (i 0).isLt
  have hi1 : (i 1).val < 128 := (i 1).isLt
  have hN : cfg1.N = 20 := N_1
  let t : Fin cfg1.N := ⟨(i 0).val / 5000, by rw [hN]; omega⟩
  have e0 := (idx1 t).2.2.2.2.2.2.2.2.2.2.2.2.2.2.2.1
  have e1 := (idx1 t).2.2.2.2.2.2.2.2.2.2.2.2.2.2.2.2
  have ht : t.val = (i 0).val / 5000 := rfl
  refine ⟨t, flush1_7 t, ?_⟩
  rw [mem_blk1]
  intro a
  match a with
  | ⟨0, _⟩ => show win1_7.index t (0 : Fin 2) * 5000 ≤ (i 0).val ∧ (i 0).val < win1_7.index t (0 : Fin 2) * 5000 + 5000; rw [e0, ht]; omega
  | ⟨1, _⟩ => show win1_7.index t (1 : Fin 2) * 128 ≤ (i 1).val ∧ (i 1).val < win1_7.index t (1 : Fin 2) * 128 + 128; rw [e1]; omega

/-- The second region's output array after its run. -/
theorem arr1 (c : Dev nD) : (dat1 V c).arrAt 7 cfg1.N = out1 V c :=
  (dat1 V c).arrAt_eq_of_cover 7 (out1 V c) (fun t _ => flushed1 V c t) cover1

end Cert.KernelIdeal.Blocks

end
-- ==== Proof.RefAgg.lean ====
/-
  The reference's matrix product, and what lies between it and the aggregated array, at the extended reals.

  The product stage is the plain sum over the contracted index of input(r, k) · transposed-weight(k, j). What follows it up
  to the aggregated array (rows of the product gathered at the edges' sources, scaled by the edges' weights, added up at the
  edges' targets) is the same text in both programs: it is kept as one function `agg` of the product array and the edge
  list, and never opened.
-/
import proofs.«115066_j32736240730563_1_alg».proof.Proof.RefRead
import proofs.«115066_j32736240730563_1_alg».proof.Proof.Spec

noncomputable section

namespace Cert.RefSide

open Idealize.ShloMosaic Idealize.ShloMosaic.ValueIdx
open Cert.ReferenceIdeal Cert.ReferenceIdeal.ReadP

/-! ## The matrix product -/

theorem lidx31 (i : S100000x128.Idx) (k : Fin 128) : lidx_main_v31 i k = ix2 (i 0) k :=
  funext fun a => Fin.ext (by match a with | ⟨0, _⟩ => rfl | ⟨1, _⟩ => rfl)
theorem ridx31 (i : S100000x128.Idx) (k : Fin 128) : ridx_main_v31 i k = ix2 k (i 1) :=
  funext fun a => Fin.ext (by match a with | ⟨0, _⟩ => rfl | ⟨1, _⟩ => rfl)

/-- The reference's product stage is the plain product of the input with the transposed weight. -/
theorem ref_dot (x0 : (⟨S100000x128, .f32⟩ : BufTy).Contents (Elt Ideal)) (x2 : (⟨S128x128, .f32⟩ : BufTy).Contents (Elt Ideal)) :
    val_main_v31 (F := Ideal) x0 x2 = Spec.Lin x0 (val_main_v30 (F := Ideal) x2) := by
  funext i
  rw [val_main_v31_apply]
  unfold Spec.Lin
  exact Finset.sum_congr rfl fun k _ => by rw [lidx31, ridx31]; rfl

/-! ## Between the product and the aggregated array -/

/-- The aggregated array as a function of the product array `h` and the edge list: rows of `h` gathered at the edges'
    sources, scaled by the edges' weights, and added up at the edges' targets. -/
def agg (h : (⟨S100000x128, .f32⟩ : BufTy).Contents (Elt Ideal)) (x1 : (⟨S2x1600000, .i32⟩ : BufTy).Contents (Elt Ideal)) : (⟨S100000x128, .f32⟩ : BufTy).Contents (Elt Ideal) :=
  Host.scatterAdd (F := Ideal) (φ := .f32) scatter_S100000x128_S1700000x1_S1700000x128_1_0_0_1 (val_main_v42 (F := Ideal)) (val_main_v43 (F := Ideal) x1)
    (mulf (F := Ideal) (φ := .f32) (Host.gather (α := Ideal .f32) gather_S100000x128_S1700000x1_S1700000x128_1_0_n_n_0_1_1128 h (val_main_v37 (F := Ideal) x1))
      (val_main_v40 (F := Ideal) x1))

theorem v44_eq (x0 : (⟨S100000x128, .f32⟩ : BufTy).Contents (Elt Ideal)) (x1 : (⟨S2x1600000, .i32⟩ : BufTy).Contents (Elt Ideal))
    (x2 : (⟨S128x128, .f32⟩ : BufTy).Contents (Elt Ideal)) :
    val_main_v44 (F := Ideal) x0 x1 x2 = agg (val_main_v31 (F := Ideal) x0 x2) x1 := rfl

end Cert.RefSide

end
-- ==== Proof.KernelChain.lean ====
/-
  The kernel program's result array as one function of the launch memory, at the extended reals.

  The program is: host operations on the edge list (sources, targets and weights of the edges with self-loops, the weights
  from the targets' degrees), the transposed weight matrix, the first region (the product), more host operations (rows of the
  product gathered at the sources, scaled, added up at the targets), five reshapes of the parameter vectors, the second region
  (the row chain). Every host value here is the same text as the reference's stage of the same number, so it is named by the
  reference's stage function and never opened; the first region's array is the product `Spec.Lin`, the second region's the
  row chain `Spec.Fus` of what it finds.
-/
import proofs.«115066_j32736240730563_1_alg».proof.Proof.KernelBlocks
import proofs.«115066_j32736240730563_1_alg».proof.Proof.RefAgg
import Idealize.ShloMosaic.Lib.StableHlo.Run
import Idealize.ShloMosaic.Lib.ValueLayout

set_option maxRecDepth 16384

noncomputable section

namespace Cert.KernelIdeal.Chain

open Idealize.ShloMosaic Idealize.ShloMosaic.TcCoe Idealize.ShloMosaic.ValueIdx Idealize.SL.Sem Idealize.ShloMosaic.StableHlo
open Cert.KernelIdeal Cert.KernelIdeal.Gen

/-- The host operations' results, read off the fold: one pass over the whole list, then the operands inside a joined list
    one rewrite at a time. -/
local macro "host_results" : tactic =>
  `(tactic|
    (after_results_simp
     repeat (first
       | rw [nullary_result] | rw [unary_result] | rw [binary_result] | rw [ternary_result] | rw [reshape_result]
       | (rw [nullary_result_ne]; rotate_left; decide)
       | (rw [unary_result_ne]; rotate_left; decide)
       | (rw [binary_result_ne]; rotate_left; decide)
       | (rw [ternary_result_ne]; rotate_left; decide)
       | (rw [reshape_result_ne]; rotate_left; decide))))

/-! ## What the first region finds -/

section AnyFloats

variable {F : FTy → Type} [FloatOps F] (m : (ℓ : Loc nD τ sig) → Buf (Elt F) ℓ) (ρ : Dev nD → PrngReg)

theorem entry0_x (c : Dev nD) : W3 m ρ c (Proc.devRef .tc main_arg0) = (m ((c : Thread nD τ).loc main_arg0)) := by
  show StableHlo.after hostOps0_2 (StableHlo.after hostOps0_1 (StableHlo.after hostOps0 (W0 m ρ c))) (Proc.devRef .tc main_arg0) = _
  host_results

theorem entry0_w (c : Dev nD) : W3 m ρ c (Proc.devRef .tc main_v30) = Cert.ReferenceIdeal.ReadP.val_main_v30 (F := F) (m ((c : Thread nD τ).loc main_arg2)) := by
  show StableHlo.after hostOps0_2 (StableHlo.after hostOps0_1 (StableHlo.after hostOps0 (W0 m ρ c))) (Proc.devRef .tc main_v30) = _
  host_results
  rfl

theorem entry0_src (c : Dev nD) : W3 m ρ c (Proc.devRef .tc main_v3) = Cert.ReferenceIdeal.ReadP.val_main_v3 (F := F) (m ((c : Thread nD τ).loc main_arg1)) := by
  show StableHlo.after hostOps0_2 (StableHlo.after hostOps0_1 (StableHlo.after hostOps0 (W0 m ρ c))) (Proc.devRef .tc main_v3) = _
  host_results
  rfl

theorem entry0_dst (c : Dev nD) : W3 m ρ c (Proc.devRef .tc main_v6) = Cert.ReferenceIdeal.ReadP.val_main_v6 (F := F) (m ((c : Thread nD τ).loc main_arg1)) := by
  show StableHlo.after hostOps0_2 (StableHlo.after hostOps0_1 (StableHlo.after hostOps0 (W0 m ρ c))) (Proc.devRef .tc main_v6) = _
  host_results
  rfl

set_option maxHeartbeats 2000000 in
theorem entry0_wt (c : Dev nD) : W3 m ρ c (Proc.devRef .tc main_v29) = Cert.ReferenceIdeal.ReadP.val_main_v29 (F := F) (m ((c : Thread nD τ).loc main_arg1)) := by
  show StableHlo.after hostOps0_2 (StableHlo.after hostOps0_1 (StableHlo.after hostOps0 (W0 m ρ c))) (Proc.devRef .tc main_v29) = _
  host_results
  rfl

theorem entry0_b (c : Dev nD) : W3 m ρ c (Proc.devRef .tc main_arg3) = (m ((c : Thread nD τ).loc main_arg3)) := by
  show StableHlo.after hostOps0_2 (StableHlo.after hostOps0_1 (StableHlo.after hostOps0 (W0 m ρ c))) (Proc.devRef .tc main_arg3) = _
  host_results

theorem entry0_g1 (c : Dev nD) : W3 m ρ c (Proc.devRef .tc main_arg4) = (m ((c : Thread nD τ).loc main_arg4)) := by
  show StableHlo.after hostOps0_2 (StableHlo.after hostOps0_1 (StableHlo.after hostOps0 (W0 m ρ c))) (Proc.devRef .tc main_arg4) = _
  host_results

theorem entry0_s1 (c : Dev nD) : W3 m ρ c (Proc.devRef .tc main_arg5) = (m ((c : Thread nD τ).loc main_arg5)) := by
  show StableHlo.after hostOps0_2 (StableHlo.after hostOps0_1 (StableHlo.after hostOps0 (W0 m ρ c))) (Proc.devRef .tc main_arg5) = _
  host_results

theorem entry0_g2 (c : Dev nD) : W3 m ρ c (Proc.devRef .tc main_arg6) = (m ((c : Thread nD τ).loc main_arg6)) := by
  show StableHlo.after hostOps0_2 (StableHlo.after hostOps0_1 (StableHlo.after hostOps0 (W0 m ρ c))) (Proc.devRef .tc main_arg6) = _
  host_results

theorem entry0_s2 (c : Dev nD) : W3 m ρ c (Proc.devRef .tc main_arg7) = (m ((c : Thread nD τ).loc main_arg7)) := by
  show StableHlo.after hostOps0_2 (StableHlo.after hostOps0_1 (StableHlo.after hostOps0 (W0 m ρ c))) (Proc.devRef .tc main_arg7) = _
  host_results

end AnyFloats

/-! ## At the extended reals -/

variable (m : (ℓ : Loc nD τ sig) → Buf (Elt Ideal) ℓ) (ρ : Dev nD → PrngReg)

/-! ### What the first region leaves: its output array is the product; everything else is as it found it -/

theorem exit0_src (c : Dev nD) : W4 m ρ c (Proc.devRef .tc main_v3) = Cert.ReferenceIdeal.ReadP.val_main_v3 (F := Ideal) (m ((c : Thread nD τ).loc main_arg1)) :=
  (W4_of_ne m ρ c main_v3 (by decide)).trans (entry0_src m ρ c)
theorem exit0_dst (c : Dev nD) : W4 m ρ c (Proc.devRef .tc main_v6) = Cert.ReferenceIdeal.ReadP.val_main_v6 (F := Ideal) (m ((c : Thread nD τ).loc main_arg1)) :=
  (W4_of_ne m ρ c main_v6 (by decide)).trans (entry0_dst m ρ c)
theorem exit0_wt (c : Dev nD) : W4 m ρ c (Proc.devRef .tc main_v29) = Cert.ReferenceIdeal.ReadP.val_main_v29 (F := Ideal) (m ((c : Thread nD τ).loc main_arg1)) :=
  (W4_of_ne m ρ c main_v29 (by decide)).trans (entry0_wt m ρ c)
theorem exit0_b (c : Dev nD) : W4 m ρ c (Proc.devRef .tc main_arg3) = (m ((c : Thread nD τ).loc main_arg3)) :=
  (W4_of_ne m ρ c main_arg3 (by decide)).trans (entry0_b m ρ c)
theorem exit0_g1 (c : Dev nD) : W4 m ρ c (Proc.devRef .tc main_arg4) = (m ((c : Thread nD τ).loc main_arg4)) :=
  (W4_of_ne m ρ c main_arg4 (by decide)).trans (entry0_g1 m ρ c)
theorem exit0_s1 (c : Dev nD) : W4 m ρ c (Proc.devRef .tc main_arg5) = (m ((c : Thread nD τ).loc main_arg5)) :=
  (W4_of_ne m ρ c main_arg5 (by decide)).trans (entry0_s1 m ρ c)
theorem exit0_g2 (c : Dev nD) : W4 m ρ c (Proc.devRef .tc main_arg6) = (m ((c : Thread nD τ).loc main_arg6)) :=
  (W4_of_ne m ρ c main_arg6 (by decide)).trans (entry0_g2 m ρ c)
theorem exit0_s2 (c : Dev nD) : W4 m ρ c (Proc.devRef .tc main_arg7) = (m ((c : Thread nD τ).loc main_arg7)) :=
  (W4_of_ne m ρ c main_arg7 (by decide)).trans (entry0_s2 m ρ c)
theorem exit0_x (c : Dev nD) : W4 m ρ c (Proc.devRef .tc main_arg0) = (m ((c : Thread nD τ).loc main_arg0)) :=
  ((W4_arr m ρ c 0).trans (((dat0 (V3 m ρ) c).arrAt_in 0 rfl _).trans (A_eq0 (V3 m ρ) c 0))).trans (entry0_x m ρ c)

/-- The first region's output: the product of the input with the transposed weight. -/
theorem exit0_prod (c : Dev nD) : W4 m ρ c (Proc.devRef .tc main_v31)
    = Spec.Lin (m ((c : Thread nD τ).loc main_arg0)) (Cert.ReferenceIdeal.ReadP.val_main_v30 (F := Ideal) (m ((c : Thread nD τ).loc main_arg2))) := by
  refine ((W4_arr m ρ c 2).trans (Blocks.arr0 (V3 m ρ) c)).trans ?_
  show Spec.Lin (W3 m ρ c (Proc.devRef .tc main_arg0)) (W3 m ρ c (Proc.devRef .tc main_v30)) = _
  rw [entry0_x, entry0_w]

/-! ### What the second region finds -/

/-- The aggregated array: the shared chain applied to the first region's output. -/
theorem entry1_agg (c : Dev nD) : W5 m ρ c (Proc.devRef .tc main_v44)
    = Cert.RefSide.agg (W4 m ρ c (Proc.devRef .tc main_v31)) (m ((c : Thread nD τ).loc main_arg1)) := by
  show StableHlo.after hostOps1 (W4 m ρ c) (Proc.devRef .tc main_v44) = _
  host_results
  rw [exit0_src, exit0_dst, exit0_wt]
  rfl

theorem entry1_x (c : Dev nD) : W5 m ρ c (Proc.devRef .tc main_arg0) = (m ((c : Thread nD τ).loc main_arg0)) := by
  show StableHlo.after hostOps1 (W4 m ρ c) (Proc.devRef .tc main_arg0) = _
  host_results
  exact exit0_x m ρ c

/-- A parameter vector reshaped to one row: the row's lane k is the vector's entry k. -/
theorem entry1_b (c : Dev nD) : (fun k : Fin 128 => W5 m ρ c (Proc.devRef .tc main_v45) (ix2 (0 : Fin 1) k))
    = fun k => (m ((c : Thread nD τ).loc main_arg3)) (ix1 k) := by
  funext k
  have e : W5 m ρ c (Proc.devRef .tc main_v45) = shapeCast S1x128 (m ((c : Thread nD τ).loc main_arg3)) shapeCasts_S128_S1x128 := by
    show StableHlo.after hostOps1 (W4 m ρ c) (Proc.devRef .tc main_v45) = _
    host_results
    rw [exit0_b]
    rfl
  rw [e]
  exact shapeCast_a_1a_apply _ _ (0 : Fin 1) k

/-- A parameter vector reshaped to one row: the row's lane k is the vector's entry k. -/
theorem entry1_g1 (c : Dev nD) : (fun k : Fin 128 => W5 m ρ c (Proc.devRef .tc main_v46) (ix2 (0 : Fin 1) k))
    = fun k => (m ((c : Thread nD τ).loc main_arg4)) (ix1 k) := by
  funext k
  have e : W5 m ρ c (Proc.devRef .tc main_v46) = shapeCast S1x128 (m ((c : Thread nD τ).loc main_arg4)) shapeCasts_S128_S1x128 := by
    show StableHlo.after hostOps1 (W4 m ρ c) (Proc.devRef .tc main_v46) = _
    host_results
    rw [exit0_g1]
    rfl
  rw [e]
  exact shapeCast_a_1a_apply _ _ (0 : Fin 1) k

/-- A parameter vector reshaped to one row: the row's lane k is the vector's entry k. -/
theorem entry1_s1 (c : Dev nD) : (fun k : Fin 128 => W5 m ρ c (Proc.devRef .tc main_v47) (ix2 (0 : Fin 1) k))
    = fun k => (m ((c : Thread nD τ).loc main_arg5)) (ix1 k) := by
  funext k
  have e : W5 m ρ c (Proc.devRef .tc main_v47) = shapeCast S1x128 (m ((c : Thread nD τ).loc main_arg5)) shapeCasts_S128_S1x128 := by
    show StableHlo.after hostOps1 (W4 m ρ c) (Proc.devRef .tc main_v47) = _
    host_results
    rw [exit0_s1]
    rfl
  rw [e]
  exact shapeCast_a_1a_apply _ _ (0 : Fin 1) k

/-- A parameter vector reshaped to one row: the row's lane k is the vector's entry k. -/
theorem entry1_g2 (c : Dev nD) : (fun k : Fin 128 => W5 m ρ c (Proc.devRef .tc main_v48) (ix2 (0 : Fin 1) k))
    = fun k => (m ((c : Thread nD τ).loc main_arg6)) (ix1 k) := by
  funext k
  have e : W5 m ρ c (Proc.devRef .tc main_v48) = shapeCast S1x128 (m ((c : Thread nD τ).loc main_arg6)) shapeCasts_S128_S1x128 := by
    show StableHlo.after hostOps1 (W4 m ρ c) (Proc.devRef .tc main_v48) = _
    host_results
    rw [exit0_g2]
    rfl
  rw [e]
  exact shapeCast_a_1a_apply _ _ (0 : Fin 1) k

/-- A parameter vector reshaped to one row: the row's lane k is the vector's entry k. -/
theorem entry1_s2 (c : Dev nD) : (fun k : Fin 128 => W5 m ρ c (Proc.devRef .tc main_v49) (ix2 (0 : Fin 1) k))
    = fun k => (m ((c : Thread nD τ).loc main_arg7)) (ix1 k) := by
  funext k
  have e : W5 m ρ c (Proc.devRef .tc main_v49) = shapeCast S1x128 (m ((c : Thread nD τ).loc main_arg7)) shapeCasts_S128_S1x128 := by
    show StableHlo.after hostOps1 (W4 m ρ c) (Proc.devRef .tc main_v49) = _
    host_results
    rw [exit0_s2]
    rfl
  rw [e]
  exact shapeCast_a_1a_apply _ _ (0 : Fin 1) k

/-! ### The result -/

/-- The program's result array as one function of the launch memory. -/
theorem result (c : Dev nD) : W6 m ρ c (Proc.devRef .tc main_v50)
    = Spec.Fus (Cert.RefSide.agg (Spec.Lin (m ((c : Thread nD τ).loc main_arg0)) (Cert.ReferenceIdeal.ReadP.val_main_v30 (F := Ideal) (m ((c : Thread nD τ).loc main_arg2)))) (m ((c : Thread nD τ).loc main_arg1)))
        (m ((c : Thread nD τ).loc main_arg0)) (fun k => (m ((c : Thread nD τ).loc main_arg3)) (ix1 k)) (fun k => (m ((c : Thread nD τ).loc main_arg4)) (ix1 k))
        (fun k => (m ((c : Thread nD τ).loc main_arg5)) (ix1 k)) (fun k => (m ((c : Thread nD τ).loc main_arg6)) (ix1 k)) (fun k => (m ((c : Thread nD τ).loc main_arg7)) (ix1 k)) := by
  refine ((W6_arr m ρ c 7).trans (Blocks.arr1 (V5 m ρ) c)).trans ?_
  show Spec.Fus (W5 m ρ c (Proc.devRef .tc main_v44)) (W5 m ρ c (Proc.devRef .tc main_arg0))
      (fun k => W5 m ρ c (Proc.devRef .tc main_v45) (ix2 (0 : Fin 1) k)) (fun k => W5 m ρ c (Proc.devRef .tc main_v46) (ix2 (0 : Fin 1) k))
      (fun k => W5 m ρ c (Proc.devRef .tc main_v47) (ix2 (0 : Fin 1) k)) (fun k => W5 m ρ c (Proc.devRef .tc main_v48) (ix2 (0 : Fin 1) k))
      (fun k => W5 m ρ c (Proc.devRef .tc main_v49) (ix2 (0 : Fin 1) k)) = _
  rw [entry1_agg, exit0_prod, entry1_x, entry1_b, entry1_g1, entry1_s1, entry1_g2, entry1_s2]

end Cert.KernelIdeal.Chain

end
-- ==== Proof.RefSide.lean ====
/-
  The reference's result array, read index by index at the extended reals.

  From its aggregated array on, the reference does on all 100000 rows at once what the row chain `Spec.fused` does on one
  row: each of its sums runs over the 128 lanes of a row, each broadcast copies a row's scalar along the lanes or a parameter
  vector down the rows. So its result at (r, j) is the row chain of row r of the aggregated array and of the input and of the
  five parameter vectors, at lane j. The stages are read one short stretch at a time, in the order of the row chain: the bias
  and the clamp; a mean; the deviations from it; the mean of their squares; the normalised, scaled and shifted row; the sum
  with the input row; and the same five once more.
-/
import proofs.«115066_j32736240730563_1_alg».proof.Proof.RefAgg

noncomputable section

namespace Cert.RefSide

open Idealize.ShloMosaic Idealize.ShloMosaic.ValueIdx
open Cert.ReferenceIdeal Cert.ReferenceIdeal.ReadP

/-! ## The layout operations' index maps at an index given by its coordinates -/

theorem idx53 (r : Fin 100000) (j : Fin 128) : idx_main_v53 (ix2 r j) = ix2 r (0 : Fin 1) :=
  funext fun a => Fin.ext (by match a with | ⟨0, _⟩ => rfl | ⟨1, _⟩ => rfl)
theorem idx60 (r : Fin 100000) (j : Fin 128) : idx_main_v60 (ix2 r j) = ix2 r (0 : Fin 1) :=
  funext fun a => Fin.ext (by match a with | ⟨0, _⟩ => rfl | ⟨1, _⟩ => rfl)
theorem idx65 (r : Fin 100000) (j : Fin 128) : idx_main_v65 (ix2 r j) = ix2 r (0 : Fin 1) :=
  funext fun a => Fin.ext (by match a with | ⟨0, _⟩ => rfl | ⟨1, _⟩ => rfl)
theorem idx78 (r : Fin 100000) (j : Fin 128) : idx_main_v78 (ix2 r j) = ix2 r (0 : Fin 1) :=
  funext fun a => Fin.ext (by match a with | ⟨0, _⟩ => rfl | ⟨1, _⟩ => rfl)
theorem idx85 (r : Fin 100000) (j : Fin 128) : idx_main_v85 (ix2 r j) = ix2 r (0 : Fin 1) :=
  funext fun a => Fin.ext (by match a with | ⟨0, _⟩ => rfl | ⟨1, _⟩ => rfl)
theorem idx90 (r : Fin 100000) (j : Fin 128) : idx_main_v90 (ix2 r j) = ix2 r (0 : Fin 1) :=
  funext fun a => Fin.ext (by match a with | ⟨0, _⟩ => rfl | ⟨1, _⟩ => rfl)
theorem idx50 (r : Fin 100000) (u : Fin 1) : idx_main_v50 (ix2 r u) = ix1 r :=
  funext fun a => Fin.ext (by match a with | ⟨0, _⟩ => rfl)
theorem idx57 (r : Fin 100000) (u : Fin 1) : idx_main_v57 (ix2 r u) = ix1 r :=
  funext fun a => Fin.ext (by match a with | ⟨0, _⟩ => rfl)
theorem idx75 (r : Fin 100000) (u : Fin 1) : idx_main_v75 (ix2 r u) = ix1 r :=
  funext fun a => Fin.ext (by match a with | ⟨0, _⟩ => rfl)
theorem idx82 (r : Fin 100000) (u : Fin 1) : idx_main_v82 (ix2 r u) = ix1 r :=
  funext fun a => Fin.ext (by match a with | ⟨0, _⟩ => rfl)
theorem idx49 (r : Fin 100000) (k : Fin 128) : idx_main_v49 (ix1 r) k = ix2 r k :=
  funext fun a => Fin.ext (by match a with | ⟨0, _⟩ => rfl | ⟨1, _⟩ => rfl)
theorem idx56 (r : Fin 100000) (k : Fin 128) : idx_main_v56 (ix1 r) k = ix2 r k :=
  funext fun a => Fin.ext (by match a with | ⟨0, _⟩ => rfl | ⟨1, _⟩ => rfl)
theorem idx74 (r : Fin 100000) (k : Fin 128) : idx_main_v74 (ix1 r) k = ix2 r k :=
  funext fun a => Fin.ext (by match a with | ⟨0, _⟩ => rfl | ⟨1, _⟩ => rfl)
theorem idx81 (r : Fin 100000) (k : Fin 128) : idx_main_v81 (ix1 r) k = ix2 r k :=
  funext fun a => Fin.ext (by match a with | ⟨0, _⟩ => rfl | ⟨1, _⟩ => rfl)
theorem idx46 (r : Fin 100000) (j : Fin 128) : idx_main_v46 (ix2 r j) = ix2 (0 : Fin 1) j :=
  funext fun a => Fin.ext (by match a with | ⟨0, _⟩ => rfl | ⟨1, _⟩ => rfl)
theorem idx68 (r : Fin 100000) (j : Fin 128) : idx_main_v68 (ix2 r j) = ix2 (0 : Fin 1) j :=
  funext fun a => Fin.ext (by match a with | ⟨0, _⟩ => rfl | ⟨1, _⟩ => rfl)
theorem idx71 (r : Fin 100000) (j : Fin 128) : idx_main_v71 (ix2 r j) = ix2 (0 : Fin 1) j :=
  funext fun a => Fin.ext (by match a with | ⟨0, _⟩ => rfl | ⟨1, _⟩ => rfl)
theorem idx93 (r : Fin 100000) (j : Fin 128) : idx_main_v93 (ix2 r j) = ix2 (0 : Fin 1) j :=
  funext fun a => Fin.ext (by match a with | ⟨0, _⟩ => rfl | ⟨1, _⟩ => rfl)
theorem idx96 (r : Fin 100000) (j : Fin 128) : idx_main_v96 (ix2 r j) = ix2 (0 : Fin 1) j :=
  funext fun a => Fin.ext (by match a with | ⟨0, _⟩ => rfl | ⟨1, _⟩ => rfl)
theorem idx45 (u : Fin 1) (j : Fin 128) : idx_main_v45 (ix2 u j) = ix1 j :=
  funext fun a => Fin.ext (by match a with | ⟨0, _⟩ => rfl)
theorem idx67 (u : Fin 1) (j : Fin 128) : idx_main_v67 (ix2 u j) = ix1 j :=
  funext fun a => Fin.ext (by match a with | ⟨0, _⟩ => rfl)
theorem idx70 (u : Fin 1) (j : Fin 128) : idx_main_v70 (ix2 u j) = ix1 j :=
  funext fun a => Fin.ext (by match a with | ⟨0, _⟩ => rfl)
theorem idx92 (u : Fin 1) (j : Fin 128) : idx_main_v92 (ix2 u j) = ix1 j :=
  funext fun a => Fin.ext (by match a with | ⟨0, _⟩ => rfl)
theorem idx95 (u : Fin 1) (j : Fin 128) : idx_main_v95 (ix2 u j) = ix1 j :=
  funext fun a => Fin.ext (by match a with | ⟨0, _⟩ => rfl)

/-! ## The reference's stages at an index given by its coordinates -/

/-- The bias and the clamp. -/
theorem ref_relu (x0 : (⟨S100000x128, .f32⟩ : BufTy).Contents (Elt Ideal)) (x1 : (⟨S2x1600000, .i32⟩ : BufTy).Contents (Elt Ideal)) (x2 : (⟨S128x128, .f32⟩ : BufTy).Contents (Elt Ideal)) (x3 : (⟨S128, .f32⟩ : BufTy).Contents (Elt Ideal)) (r : Fin 100000) (k : Fin 128) :
    val_main_v48 (F := Ideal) x0 x1 x2 x3 (ix2 r k) = (Spec.biasRelu (fun k => val_main_v44 (F := Ideal) x0 x1 x2 (ix2 r k)) (fun k => x3 (ix1 k))) k := by
  rw [val_main_v48_apply, val_main_v47_apply, val_main_v46_apply, idx46, val_main_v45_apply, idx45,
    val_main_call1_v0_apply, val_main_call1_cst_apply]
  simp only [Ideal.addf_def, Ideal.maximumf_def, Ideal.ofBits_def, Ideal.ofBits_zero_f32, Spec.biasRelu]

/-! ### The first normalisation, of the clamped row -/

theorem ref_mean1 (x0 : (⟨S100000x128, .f32⟩ : BufTy).Contents (Elt Ideal)) (x1 : (⟨S2x1600000, .i32⟩ : BufTy).Contents (Elt Ideal)) (x2 : (⟨S128x128, .f32⟩ : BufTy).Contents (Elt Ideal)) (x3 : (⟨S128, .f32⟩ : BufTy).Contents (Elt Ideal)) (r : Fin 100000) (u : Fin 1) :
    val_main_v52 (F := Ideal) x0 x1 x2 x3 (ix2 r u) = Spec.mean (Spec.biasRelu (fun k => val_main_v44 (F := Ideal) x0 x1 x2 (ix2 r k)) (fun k => x3 (ix1 k))) := by
  rw [val_main_v52_apply, val_main_v50_apply, idx50, val_main_v49_apply, val_main_v51_apply, val_main_cst_10_apply, val_main_cst_9_apply]
  have hs : (∑ k : Fin 128, (val_main_v48 (F := Ideal) x0 x1 x2 x3) (idx_main_v49 (ix1 r) k)) = ∑ k : Fin 128, (Spec.biasRelu (fun k => val_main_v44 (F := Ideal) x0 x1 x2 (ix2 r k)) (fun k => x3 (ix1 k))) k :=
    Finset.sum_congr rfl fun k _ => by rw [idx49, ref_relu]
  rw [hs]
  simp only [Ideal.hostDivf_def, Ideal.ofBits_def, Ideal.ofBits_zero_f32, zero_add, Spec.mean, Spec.lanes]

theorem ref_devA1 (x0 : (⟨S100000x128, .f32⟩ : BufTy).Contents (Elt Ideal)) (x1 : (⟨S2x1600000, .i32⟩ : BufTy).Contents (Elt Ideal)) (x2 : (⟨S128x128, .f32⟩ : BufTy).Contents (Elt Ideal)) (x3 : (⟨S128, .f32⟩ : BufTy).Contents (Elt Ideal)) (r : Fin 100000) (k : Fin 128) :
    val_main_v54 (F := Ideal) x0 x1 x2 x3 (ix2 r k) = (fun k => (Spec.biasRelu (fun k => val_main_v44 (F := Ideal) x0 x1 x2 (ix2 r k)) (fun k => x3 (ix1 k))) k - Spec.mean (Spec.biasRelu (fun k => val_main_v44 (F := Ideal) x0 x1 x2 (ix2 r k)) (fun k => x3 (ix1 k)))) k := by
  rw [val_main_v54_apply, val_main_v53_apply, idx53, ref_relu, ref_mean1]
  rfl

theorem ref_devB1 (x0 : (⟨S100000x128, .f32⟩ : BufTy).Contents (Elt Ideal)) (x1 : (⟨S2x1600000, .i32⟩ : BufTy).Contents (Elt Ideal)) (x2 : (⟨S128x128, .f32⟩ : BufTy).Contents (Elt Ideal)) (x3 : (⟨S128, .f32⟩ : BufTy).Contents (Elt Ideal)) (r : Fin 100000) (k : Fin 128) :
    val_main_v61 (F := Ideal) x0 x1 x2 x3 (ix2 r k) = (fun k => (Spec.biasRelu (fun k => val_main_v44 (F := Ideal) x0 x1 x2 (ix2 r k)) (fun k => x3 (ix1 k))) k - Spec.mean (Spec.biasRelu (fun k => val_main_v44 (F := Ideal) x0 x1 x2 (ix2 r k)) (fun k => x3 (ix1 k)))) k := by
  rw [val_main_v61_apply, val_main_v60_apply, idx60, ref_relu, ref_mean1]
  rfl

theorem ref_var1 (x0 : (⟨S100000x128, .f32⟩ : BufTy).Contents (Elt Ideal)) (x1 : (⟨S2x1600000, .i32⟩ : BufTy).Contents (Elt Ideal)) (x2 : (⟨S128x128, .f32⟩ : BufTy).Contents (Elt Ideal)) (x3 : (⟨S128, .f32⟩ : BufTy).Contents (Elt Ideal)) (r : Fin 100000) (u : Fin 1) :
    val_main_v59 (F := Ideal) x0 x1 x2 x3 (ix2 r u) = Spec.mean (fun k => (fun k => (Spec.biasRelu (fun k => val_main_v44 (F := Ideal) x0 x1 x2 (ix2 r k)) (fun k => x3 (ix1 k))) k - Spec.mean (Spec.biasRelu (fun k => val_main_v44 (F := Ideal) x0 x1 x2 (ix2 r k)) (fun k => x3 (ix1 k)))) k * (fun k => (Spec.biasRelu (fun k => val_main_v44 (F := Ideal) x0 x1 x2 (ix2 r k)) (fun k => x3 (ix1 k))) k - Spec.mean (Spec.biasRelu (fun k => val_main_v44 (F := Ideal) x0 x1 x2 (ix2 r k)) (fun k => x3 (ix1 k)))) k) := by
  rw [val_main_v59_apply, val_main_v57_apply, idx57, val_main_v56_apply, val_main_v58_apply, val_main_cst_12_apply, val_main_cst_11_apply]
  have hs : (∑ k : Fin 128, (val_main_v55 (F := Ideal) x0 x1 x2 x3) (idx_main_v56 (ix1 r) k)) = ∑ k : Fin 128, (fun k => (Spec.biasRelu (fun k => val_main_v44 (F := Ideal) x0 x1 x2 (ix2 r k)) (fun k => x3 (ix1 k))) k - Spec.mean (Spec.biasRelu (fun k => val_main_v44 (F := Ideal) x0 x1 x2 (ix2 r k)) (fun k => x3 (ix1 k)))) k * (fun k => (Spec.biasRelu (fun k => val_main_v44 (F := Ideal) x0 x1 x2 (ix2 r k)) (fun k => x3 (ix1 k))) k - Spec.mean (Spec.biasRelu (fun k => val_main_v44 (F := Ideal) x0 x1 x2 (ix2 r k)) (fun k => x3 (ix1 k)))) k :=
    Finset.sum_congr rfl fun k _ => by rw [idx56, val_main_v55_apply, ref_devA1]; rfl
  rw [hs]
  simp only [Ideal.hostDivf_def, Ideal.ofBits_def, Ideal.ofBits_zero_f32, zero_add, Spec.mean, Spec.lanes]

theorem ref_norm1 (x0 : (⟨S100000x128, .f32⟩ : BufTy).Contents (Elt Ideal)) (x1 : (⟨S2x1600000, .i32⟩ : BufTy).Contents (Elt Ideal)) (x2 : (⟨S128x128, .f32⟩ : BufTy).Contents (Elt Ideal)) (x3 x4 x5 : (⟨S128, .f32⟩ : BufTy).Contents (Elt Ideal)) (r : Fin 100000) (j : Fin 128) :
    val_main_v72 (F := Ideal) x0 x1 x2 x3 x4 x5 (ix2 r j) = Spec.norm (Spec.biasRelu (fun k => val_main_v44 (F := Ideal) x0 x1 x2 (ix2 r k)) (fun k => x3 (ix1 k))) (fun k => x4 (ix1 k)) (fun k => x5 (ix1 k)) j := by
  rw [val_main_v72_apply, val_main_v69_apply, val_main_v66_apply, ref_devB1, val_main_v65_apply, idx65, val_main_v64_apply,
    val_main_v63_apply, ref_var1, val_main_v62_apply, val_main_cst_13_apply, val_main_v68_apply, idx68, val_main_v67_apply, idx67,
    val_main_v71_apply, idx71, val_main_v70_apply, idx70]
  simp only [Ideal.addf_def, Ideal.mulf_def, Ideal.hostUnary_rsqrt_def, Ideal.ofBits_def, Spec.norm, Spec.tiny, Spec.mean, Spec.lanes]

/-- The input row added to the first normalisation. -/
theorem ref_sum (x0 : (⟨S100000x128, .f32⟩ : BufTy).Contents (Elt Ideal)) (x1 : (⟨S2x1600000, .i32⟩ : BufTy).Contents (Elt Ideal)) (x2 : (⟨S128x128, .f32⟩ : BufTy).Contents (Elt Ideal)) (x3 x4 x5 : (⟨S128, .f32⟩ : BufTy).Contents (Elt Ideal)) (r : Fin 100000) (k : Fin 128) :
    val_main_v73 (F := Ideal) x0 x1 x2 x3 x4 x5 (ix2 r k) = (fun k => x0 (ix2 r k) + Spec.norm (Spec.biasRelu (fun k => val_main_v44 (F := Ideal) x0 x1 x2 (ix2 r k)) (fun k => x3 (ix1 k))) (fun k => x4 (ix1 k)) (fun k => x5 (ix1 k)) k) k := by
  rw [val_main_v73_apply, ref_norm1]
  rfl

/-! ### The second normalisation, of the sum -/

theorem ref_mean2 (x0 : (⟨S100000x128, .f32⟩ : BufTy).Contents (Elt Ideal)) (x1 : (⟨S2x1600000, .i32⟩ : BufTy).Contents (Elt Ideal)) (x2 : (⟨S128x128, .f32⟩ : BufTy).Contents (Elt Ideal)) (x3 x4 x5 : (⟨S128, .f32⟩ : BufTy).Contents (Elt Ideal)) (r : Fin 100000) (u : Fin 1) :
    val_main_v77 (F := Ideal) x0 x1 x2 x3 x4 x5 (ix2 r u) = Spec.mean (fun k => x0 (ix2 r k) + Spec.norm (Spec.biasRelu (fun k => val_main_v44 (F := Ideal) x0 x1 x2 (ix2 r k)) (fun k => x3 (ix1 k))) (fun k => x4 (ix1 k)) (fun k => x5 (ix1 k)) k) := by
  rw [val_main_v77_apply, val_main_v75_apply, idx75, val_main_v74_apply, val_main_v76_apply, val_main_cst_15_apply, val_main_cst_14_apply]
  have hs : (∑ k : Fin 128, (val_main_v73 (F := Ideal) x0 x1 x2 x3 x4 x5) (idx_main_v74 (ix1 r) k)) = ∑ k : Fin 128, (fun k => x0 (ix2 r k) + Spec.norm (Spec.biasRelu (fun k => val_main_v44 (F := Ideal) x0 x1 x2 (ix2 r k)) (fun k => x3 (ix1 k))) (fun k => x4 (ix1 k)) (fun k => x5 (ix1 k)) k) k :=
    Finset.sum_congr rfl fun k _ => by rw [idx74, ref_sum]
  rw [hs]
  simp only [Ideal.hostDivf_def, Ideal.ofBits_def, Ideal.ofBits_zero_f32, zero_add, Spec.mean, Spec.lanes]

theorem ref_devA2 (x0 : (⟨S100000x128, .f32⟩ : BufTy).Contents (Elt Ideal)) (x1 : (⟨S2x1600000, .i32⟩ : BufTy).Contents (Elt Ideal)) (x2 : (⟨S128x128, .f32⟩ : BufTy).Contents (Elt Ideal)) (x3 x4 x5 : (⟨S128, .f32⟩ : BufTy).Contents (Elt Ideal)) (r : Fin 100000) (k : Fin 128) :
    val_main_v79 (F := Ideal) x0 x1 x2 x3 x4 x5 (ix2 r k) = (fun k => (fun k => x0 (ix2 r k) + Spec.norm (Spec.biasRelu (fun k => val_main_v44 (F := Ideal) x0 x1 x2 (ix2 r k)) (fun k => x3 (ix1 k))) (fun k => x4 (ix1 k)) (fun k => x5 (ix1 k)) k) k - Spec.mean (fun k => x0 (ix2 r k) + Spec.norm (Spec.biasRelu (fun k => val_main_v44 (F := Ideal) x0 x1 x2 (ix2 r k)) (fun k => x3 (ix1 k))) (fun k => x4 (ix1 k)) (fun k => x5 (ix1 k)) k)) k := by
  rw [val_main_v79_apply, val_main_v78_apply, idx78, ref_sum, ref_mean2]
  rfl

theorem ref_devB2 (x0 : (⟨S100000x128, .f32⟩ : BufTy).Contents (Elt Ideal)) (x1 : (⟨S2x1600000, .i32⟩ : BufTy).Contents (Elt Ideal)) (x2 : (⟨S128x128, .f32⟩ : BufTy).Contents (Elt Ideal)) (x3 x4 x5 : (⟨S128, .f32⟩ : BufTy).Contents (Elt Ideal)) (r : Fin 100000) (k : Fin 128) :
    val_main_v86 (F := Ideal) x0 x1 x2 x3 x4 x5 (ix2 r k) = (fun k => (fun k => x0 (ix2 r k) + Spec.norm (Spec.biasRelu (fun k => val_main_v44 (F := Ideal) x0 x1 x2 (ix2 r k)) (fun k => x3 (ix1 k))) (fun k => x4 (ix1 k)) (fun k => x5 (ix1 k)) k) k - Spec.mean (fun k => x0 (ix2 r k) + Spec.norm (Spec.biasRelu (fun k => val_main_v44 (F := Ideal) x0 x1 x2 (ix2 r k)) (fun k => x3 (ix1 k))) (fun k => x4 (ix1 k)) (fun k => x5 (ix1 k)) k)) k := by
  rw [val_main_v86_apply, val_main_v85_apply, idx85, ref_sum, ref_mean2]
  rfl

theorem ref_var2 (x0 : (⟨S100000x128, .f32⟩ : BufTy).Contents (Elt Ideal)) (x1 : (⟨S2x1600000, .i32⟩ : BufTy).Contents (Elt Ideal)) (x2 : (⟨S128x128, .f32⟩ : BufTy).Contents (Elt Ideal)) (x3 x4 x5 : (⟨S128, .f32⟩ : BufTy).Contents (Elt Ideal)) (r : Fin 100000) (u : Fin 1) :
    val_main_v84 (F := Ideal) x0 x1 x2 x3 x4 x5 (ix2 r u) = Spec.mean (fun k => (fun k => (fun k => x0 (ix2 r k) + Spec.norm (Spec.biasRelu (fun k => val_main_v44 (F := Ideal) x0 x1 x2 (ix2 r k)) (fun k => x3 (ix1 k))) (fun k => x4 (ix1 k)) (fun k => x5 (ix1 k)) k) k - Spec.mean (fun k => x0 (ix2 r k) + Spec.norm (Spec.biasRelu (fun k => val_main_v44 (F := Ideal) x0 x1 x2 (ix2 r k)) (fun k => x3 (ix1 k))) (fun k => x4 (ix1 k)) (fun k => x5 (ix1 k)) k)) k * (fun k => (fun k => x0 (ix2 r k) + Spec.norm (Spec.biasRelu (fun k => val_main_v44 (F := Ideal) x0 x1 x2 (ix2 r k)) (fun k => x3 (ix1 k))) (fun k => x4 (ix1 k)) (fun k => x5 (ix1 k)) k) k - Spec.mean (fun k => x0 (ix2 r k) + Spec.norm (Spec.biasRelu (fun k => val_main_v44 (F := Ideal) x0 x1 x2 (ix2 r k)) (fun k => x3 (ix1 k))) (fun k => x4 (ix1 k)) (fun k => x5 (ix1 k)) k)) k) := by
  rw [val_main_v84_apply, val_main_v82_apply, idx82, val_main_v81_apply, val_main_v83_apply, val_main_cst_17_apply, val_main_cst_16_apply]
  have hs : (∑ k : Fin 128, (val_main_v80 (F := Ideal) x0 x1 x2 x3 x4 x5) (idx_main_v81 (ix1 r) k)) = ∑ k : Fin 128, (fun k => (fun k => x0 (ix2 r k) + Spec.norm (Spec.biasRelu (fun k => val_main_v44 (F := Ideal) x0 x1 x2 (ix2 r k)) (fun k => x3 (ix1 k))) (fun k => x4 (ix1 k)) (fun k => x5 (ix1 k)) k) k - Spec.mean (fun k => x0 (ix2 r k) + Spec.norm (Spec.biasRelu (fun k => val_main_v44 (F := Ideal) x0 x1 x2 (ix2 r k)) (fun k => x3 (ix1 k))) (fun k => x4 (ix1 k)) (fun k => x5 (ix1 k)) k)) k * (fun k => (fun k => x0 (ix2 r k) + Spec.norm (Spec.biasRelu (fun k => val_main_v44 (F := Ideal) x0 x1 x2 (ix2 r k)) (fun k => x3 (ix1 k))) (fun k => x4 (ix1 k)) (fun k => x5 (ix1 k)) k) k - Spec.mean (fun k => x0 (ix2 r k) + Spec.norm (Spec.biasRelu (fun k => val_main_v44 (F := Ideal) x0 x1 x2 (ix2 r k)) (fun k => x3 (ix1 k))) (fun k => x4 (ix1 k)) (fun k => x5 (ix1 k)) k)) k :=
    Finset.sum_congr rfl fun k _ => by rw [idx81, val_main_v80_apply, ref_devA2]; rfl
  rw [hs]
  simp only [Ideal.hostDivf_def, Ideal.ofBits_def, Ideal.ofBits_zero_f32, zero_add, Spec.mean, Spec.lanes]

theorem ref_norm2 (x0 : (⟨S100000x128, .f32⟩ : BufTy).Contents (Elt Ideal)) (x1 : (⟨S2x1600000, .i32⟩ : BufTy).Contents (Elt Ideal)) (x2 : (⟨S128x128, .f32⟩ : BufTy).Contents (Elt Ideal)) (x3 x4 x5 x6 x7 : (⟨S128, .f32⟩ : BufTy).Contents (Elt Ideal)) (r : Fin 100000) (j : Fin 128) :
    val_main_v97 (F := Ideal) x0 x1 x2 x3 x4 x5 x6 x7 (ix2 r j) = Spec.norm (fun k => x0 (ix2 r k) + Spec.norm (Spec.biasRelu (fun k => val_main_v44 (F := Ideal) x0 x1 x2 (ix2 r k)) (fun k => x3 (ix1 k))) (fun k => x4 (ix1 k)) (fun k => x5 (ix1 k)) k) (fun k => x6 (ix1 k)) (fun k => x7 (ix1 k)) j := by
  rw [val_main_v97_apply, val_main_v94_apply, val_main_v91_apply, ref_devB2, val_main_v90_apply, idx90, val_main_v89_apply,
    val_main_v88_apply, ref_var2, val_main_v87_apply, val_main_cst_18_apply, val_main_v93_apply, idx93, val_main_v92_apply, idx92,
    val_main_v96_apply, idx96, val_main_v95_apply, idx95]
  simp only [Ideal.addf_def, Ideal.mulf_def, Ideal.hostUnary_rsqrt_def, Ideal.ofBits_def, Spec.norm, Spec.tiny, Spec.mean, Spec.lanes]

/-! ## The reference's result -/

/-- The reference's result array: the row chain of every row of the aggregated array, which is the shared chain `agg` of
    the product of the input with the transposed weight. -/
theorem ref_result (x0 : (⟨S100000x128, .f32⟩ : BufTy).Contents (Elt Ideal)) (x1 : (⟨S2x1600000, .i32⟩ : BufTy).Contents (Elt Ideal))
    (x2 : (⟨S128x128, .f32⟩ : BufTy).Contents (Elt Ideal)) (x3 x4 x5 x6 x7 : (⟨S128, .f32⟩ : BufTy).Contents (Elt Ideal)) :
    val_main_v97 (F := Ideal) x0 x1 x2 x3 x4 x5 x6 x7
      = Spec.Fus (agg (Spec.Lin x0 (val_main_v30 (F := Ideal) x2)) x1) x0 (fun k => x3 (ix1 k)) (fun k => x4 (ix1 k))
          (fun k => x5 (ix1 k)) (fun k => x6 (ix1 k)) (fun k => x7 (ix1 k)) := by
  funext i
  obtain ⟨r, j, rfl⟩ : ∃ (r : Fin 100000) (j : Fin 128), i = ix2 r j := ⟨i 0, i 1, eq_ix2 i⟩
  rw [ref_norm2, v44_eq, ref_dot]
  rfl

end Cert.RefSide

end
-- ==== Proof.lean ====
/-
  A graph convolution followed by two layer normalisations, as a tiled program and as a plain array program: the two compute
  the same 100000 × 128 array at the extended reals.

  Both programs first work on the edge list alone (sources and targets of the 1600000 edges plus one self-loop per node,
  each target's degree, an edge's weight the product of the reciprocal square roots of its ends' degrees); both multiply
  the input by the transposed weight matrix; both gather the product's rows at the sources, scale them by the weights and add
  them up at the targets; both then, row by row, add a bias, clamp at zero, normalise the row, add the input row, and
  normalise again. The plain program does the product as one contraction and the row-wise part as whole-array operations;
  the tiled one does the product 5000 rows at a time (after narrowing both operands to a shorter float format, the identity
  at the extended reals) and the row-wise part 5000 rows at a time with a lane sum where the plain one has a reduction.

  Nothing needs an algebraic law: a row's sums run over its own 128 lanes in both programs, and a block of rows of the
  product is the product of the block of rows. So both results are the row chain `Spec.fused` of every row of the aggregated
  array `agg (Spec.Lin x Wᵀ) edges`, where `agg`, the gather-scale-scatter chain both programs share, is never opened. The
  precondition (finite inputs) is not used.

  The three runs: the two tiled programs' frames are the generated ones; the plain program's frame is its run with the result
  dropped; the tiled program's run with its result named is the generated launch over the program's segments, re-posted with
  the result array, read back region by region and host stretch by host stretch to the launch memory.
-/
import proofs.«115066_j32736240730563_1_alg».proof.Defs
import proofs.«115066_j32736240730563_1_alg».proof.Proof.Gen.Kernel
import proofs.«115066_j32736240730563_1_alg».proof.Proof.Gen.Kernel.Frame
import proofs.«115066_j32736240730563_1_alg».proof.Proof.Gen.KernelIdeal
import proofs.«115066_j32736240730563_1_alg».proof.Proof.Gen.KernelIdeal.Frame
import proofs.«115066_j32736240730563_1_alg».proof.Proof.Gen.ReferenceIdeal
import proofs.«115066_j32736240730563_1_alg».proof.Proof.Gen.Pre_finite_inputs
import proofs.«115066_j32736240730563_1_alg».proof.Proof.KernelRun
import proofs.«115066_j32736240730563_1_alg».proof.Proof.KernelChain
import proofs.«115066_j32736240730563_1_alg».proof.Proof.RefSide
import Idealize.ShloMosaic.Adequacy
import Idealize.ShloMosaic.Init

noncomputable section

namespace Cert.Proof

open Idealize.ShloMosaic Idealize.ShloMosaic.ValueIdx Idealize.SL.Sem

/-- The word-level tiled program runs and leaves its arguments alone. -/
theorem frame_p : Cert.frame_Kernel := fun m ρ _ => Cert.Kernel.Gen.frame m ρ

/-- So does the tiled program read at the extended reals. -/
theorem frame_pi : Cert.frame_KernelIdeal := fun m ρ _ => Cert.KernelIdeal.Gen.frame m ρ

/-- So does the plain program: its run, with the result dropped. -/
theorem frame_ri : Cert.frame_ReferenceIdeal := fun m ρ _ =>
  (θ_run Cert.ReferenceIdeal.defs _ _).mono (fun _ h c => (h c).2) (Cert.ReferenceIdeal.ValueP.run (F := Ideal) m ρ)

/-- The idealisation rewrote nothing. -/
theorem preserves : Cert.preserves_Kernel_KernelIdeal := trivial

/-- Both programs end with the row chain of every row of the aggregated array of the product. -/
theorem algebraic : Cert.algebraic_KernelIdeal_ReferenceIdeal := by
  intro m ρ m' ρ' _ hagree
  refine ⟨fun c => Cert.Spec.Fus
      (Cert.RefSide.agg (Cert.Spec.Lin (m ((c.tc : Thread Cert.KernelIdeal.nD Cert.KernelIdeal.τ).loc Cert.KernelIdeal.main_arg0)) (Cert.ReferenceIdeal.ReadP.val_main_v30 (F := Ideal) (m ((c.tc : Thread Cert.KernelIdeal.nD Cert.KernelIdeal.τ).loc Cert.KernelIdeal.main_arg2)))) (m ((c.tc : Thread Cert.KernelIdeal.nD Cert.KernelIdeal.τ).loc Cert.KernelIdeal.main_arg1)))
      (m ((c.tc : Thread Cert.KernelIdeal.nD Cert.KernelIdeal.τ).loc Cert.KernelIdeal.main_arg0)) (fun k => (m ((c.tc : Thread Cert.KernelIdeal.nD Cert.KernelIdeal.τ).loc Cert.KernelIdeal.main_arg3)) (ix1 k)) (fun k => (m ((c.tc : Thread Cert.KernelIdeal.nD Cert.KernelIdeal.τ).loc Cert.KernelIdeal.main_arg4)) (ix1 k))
      (fun k => (m ((c.tc : Thread Cert.KernelIdeal.nD Cert.KernelIdeal.τ).loc Cert.KernelIdeal.main_arg5)) (ix1 k)) (fun k => (m ((c.tc : Thread Cert.KernelIdeal.nD Cert.KernelIdeal.τ).loc Cert.KernelIdeal.main_arg6)) (ix1 k)) (fun k => (m ((c.tc : Thread Cert.KernelIdeal.nD Cert.KernelIdeal.τ).loc Cert.KernelIdeal.main_arg7)) (ix1 k)), ?_, ?_⟩
  · exact (θ_run Cert.KernelIdeal.defs _ _).mono (fun r h c => ⟨(h c).1.trans (Cert.KernelIdeal.Chain.result m ρ c), (h c).2⟩)
      (Cert.KernelIdeal.GenRun.run_result (F := Ideal) m ρ)
  · refine (θ_run Cert.ReferenceIdeal.defs _ _).mono (fun r h c => ⟨?_, (h c).2⟩) (Cert.ReferenceIdeal.ValueP.run (F := Ideal) m' ρ')
    obtain ⟨e0, e1, e2, e3, e4, e5, e6, e7⟩ := hagree c
    rw [(h c).1, Cert.ReferenceIdeal.ReadP.val_main_v97_eq, Cert.RefSide.ref_result, e0, e1, e2, e3, e4, e5, e6, e7]

theorem claim : Cert.Claim := ⟨Cert.Kernel.Gen.facts, Cert.KernelIdeal.Gen.facts, Cert.ReferenceIdeal.Gen.facts, Cert.Pre_finite_inputs.Gen.facts,
  frame_p, frame_pi, frame_ri, preserves, algebraic⟩

end Cert.Proof

end
